-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x256 : Shape := ⟨2, ![4096, 256]⟩
abbrev S1024x2048 : Shape := ⟨2, ![1024, 2048]⟩
abbrev S1024x256 : Shape := ⟨2, ![1024, 256]⟩
abbrev S64x256 : Shape := ⟨2, ![64, 256]⟩
abbrev S4096x64 : Shape := ⟨2, ![4096, 64]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024x256 : S_.BroadcastsInDim S1024x256 (![] : Fin 0 → Fin S1024x256.rank)
  reducesTo_S1024x256_S_d0_1 : S1024x256.ReducesTo [0, 1] S_
  bcast_S_S64x256 : S_.BroadcastsInDim S64x256 (![] : Fin 0 → Fin S64x256.rank)
  reducesTo_S64x256_S_d0_1 : S64x256.ReducesTo [0, 1] S_
  bcast_S_S4096x64 : S_.BroadcastsInDim S4096x64 (![] : Fin 0 → Fin S4096x64.rank)
  reducesTo_S4096x64_S_d0_1 : S4096x64.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S4096x64 .f32) (main_arg12 : FVec F S4096x64 .f32) (main_arg13 : FVec F S1024 .f32) (main_v48 : IVec S_ 1) (main_v49 : FVec F S4096x64 .f32) (main_v50 : FVec F S4096x64 .f32) : IVec S_ 1 :=
  let main_v51 : IVec S4096x64 1 := cmpf .olt main_v49 main_v50
  let main_c_19 : IVec S_ 1 := constantI S_ 1 1#1
  let main_v52 : IVec S_ 1 := (fun x v => Host.reduce IntOp.andi x v reducesTo_S4096x64_S_d0_1 h_S_) main_v51 main_c_19
  let main_v53 : IVec S_ 1 := andi main_v48 main_v52
  let main_v54 : FVec F S4096x64 .f32 := Host.absf main_arg11
  let main_cst_20 : FVec F S_ .f32 := constant S_ .f32 0x7F800000#32
  let main_v55 : FVec F S4096x64 .f32 := broadcastInDim S4096x64 ![] bcast_S_S4096x64 main_cst_20
  let main_v56 : IVec S4096x64 1 := cmpf .olt main_v54 main_v55
  let main_c_21 : IVec S_ 1 := constantI S_ 1 1#1
  let main_v57 : IVec S_ 1 := (fun x v => Host.reduce IntOp.andi x v reducesTo_S4096x64_S_d0_1 h_S_) main_v56 main_c_21
  let main_v58 : IVec S_ 1 := andi main_v53 main_v57
  let main_v59 : FVec F S4096x64 .f32 := Host.absf main_arg12
  let main_cst_22 : FVec F S_ .f32 := constant S_ .f32 0x7F800000#32
  let main_v60 : FVec F S4096x64 .f32 := broadcastInDim S4096x64 ![] bcast_S_S4096x64 main_cst_22
  let main_v61 : IVec S4096x64 1 := cmpf .olt main_v59 main_v60
  let main_c_23 : IVec S_ 1 := constantI S_ 1 1#1
  let main_v62 : IVec S_ 1 := (fun x v => Host.reduce IntOp.andi x v reducesTo_S4096x64_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024x2048 .f32) (main_arg8 : FVec F S1024x256 .f32) (main_arg9 : FVec F S64x256 .f32) (main_arg10 : FVec F S4096x64 .f32) (main_arg11 : FVec F S4096x64 .f32) (main_arg12 : FVec F S4096x64 .f32) (main_arg13 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024x256 .f32 := Host.absf main_arg8
  let main_cst_14 : FVec F S_ .f32 := constant S_ .f32 0x7F800000#32
  let main_v40 : FVec F S1024x256 .f32 := broadcastInDim S1024x256 ![] bcast_S_S1024x256 main_cst_14
  let main_v41 : IVec S1024x256 1 := cmpf .olt main_v39 main_v40
  let main_c_15 : IVec S_ 1 := constantI S_ 1 1#1
  let main_v42 : IVec S_ 1 := (fun x v => Host.reduce IntOp.andi x v reducesTo_S1024x256_S_d0_1 h_S_) main_v41 main_c_15
  let main_v43 : IVec S_ 1 := andi main_v38 main_v42
  let main_v44 : FVec F S64x256 .f32 := Host.absf main_arg9
  let main_cst_16 : FVec F S_ .f32 := constant S_ .f32 0x7F800000#32
  let main_v45 : FVec F S64x256 .f32 := broadcastInDim S64x256 ![] bcast_S_S64x256 main_cst_16
  let main_v46 : IVec S64x256 1 := cmpf .olt main_v44 main_v45
  let main_c_17 : IVec S_ 1 := constantI S_ 1 1#1
  let main_v47 : IVec S_ 1 := (fun x v => Host.reduce IntOp.andi x v reducesTo_S64x256_S_d0_1 h_S_) main_v46 main_c_17
  let main_v48 : IVec S_ 1 := andi main_v43 main_v47
  let main_v49 : FVec F S4096x64 .f32 := Host.absf main_arg10
  let main_cst_18 : FVec F S_ .f32 := constant S_ .f32 0x7F800000#32
  let main_v50 : FVec F S4096x64 .f32 := broadcastInDim S4096x64 ![] bcast_S_S4096x64 main_cst_18
  fn_part3 (F := F) main_arg11 main_arg12 main_arg13 main_v48 main_v49 main_v50

def fn_part1 {F : FTy → Type} [FloatOps F] (main_arg4 : FVec F S4096x256 .f32) (main_arg5 : FVec F S4096x1024 .f32) (main_arg6 : FVec F S4096x1024 .f32) (main_arg7 : FVec F S1024x2048 .f32) (main_arg8 : FVec F S1024x256 .f32) (main_arg9 : FVec F S64x256 .f32) (main_arg10 : FVec F S4096x64 .f32) (main_arg11 : FVec F S4096x64 .f32) (main_arg12 : FVec F S4096x64 .f32) (main_arg13 : FVec F S1024 .f32) (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  let main_v19 : FVec F S4096x256 .f32 := Host.absf main_arg4
  let main_cst_6 : FVec F S_ .f32 := constant S_ .f32 0x7F800000#32
  let main_v20 : FVec F S4096x256 .f32 := broadcastInDim S4096x256 ![] bcast_S_S4096x256 main_cst_6
  let main_v21 : IVec S4096x256 1 := cmpf .olt main_v19 main_v20
  let main_c_7 : IVec S_ 1 := constantI S_ 1 1#1
  let main_v22 : IVec S_ 1 := (fun x v => Host.reduce IntOp.andi x v reducesTo_S4096x256_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x1024 .f32) (main_arg1 : FVec F S4096x1024 .f32) (main_arg2 : FVec F S4096x1024 .f32) (main_arg3 : FVec F S4096x256 .f32) (main_arg4 : FVec F S4096x256 .f32) (main_arg5 : FVec F S4096x1024 .f32) (main_arg6 : FVec F S4096x1024 .f32) (main_arg7 : FVec F S1024x2048 .f32) (main_arg8 : FVec F S1024x256 .f32) (main_arg9 : FVec F S64x256 .f32) (main_arg10 : FVec F S4096x64 .f32) (main_arg11 : FVec F S4096x64 .f32) (main_arg12 : FVec F S4096x64 .f32) (main_arg13 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x1024 : Shape := ⟨2, ![4096, 1024]⟩
abbrev S4096x256 : Shape := ⟨2, ![4096, 256]⟩
abbrev S1024x2048 : Shape := ⟨2, ![1024, 2048]⟩
abbrev S1024x256 : Shape := ⟨2, ![1024, 256]⟩
abbrev S64x256 : Shape := ⟨2, ![64, 256]⟩
abbrev S4096x64 : Shape := ⟨2, ![4096, 64]⟩
abbrev S1024 : Shape := ⟨1, ![1024]⟩
abbrev S1x1024 : Shape := ⟨2, ![1, 1024]⟩
abbrev S128x1024 : Shape := ⟨2, ![128, 1024]⟩
abbrev S128x256 : Shape := ⟨2, ![128, 256]⟩
abbrev S1024x1024 : Shape := ⟨2, ![1024, 1024]⟩
abbrev S128x64 : Shape := ⟨2, ![128, 64]⟩
abbrev S128x4096 : Shape := ⟨2, ![128, 4096]⟩

abbrev nBuf : Space → Nat
  | .hbm => 27
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x256, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S1024x256, .f32⟩
  | .hbm, ⟨9, _⟩ => ⟨S64x256, .f32⟩
  | .hbm, ⟨10, _⟩ => ⟨S4096x64, .f32⟩
  | .hbm, ⟨11, _⟩ => ⟨S4096x64, .f32⟩
  | .hbm, ⟨12, _⟩ => ⟨S4096x64, .f32⟩
  | .hbm, ⟨13, _⟩ => ⟨S1024, .f32⟩
  | .hbm, ⟨14, _⟩ => ⟨S4096x1024, .bf16⟩
  | .hbm, ⟨15, _⟩ => ⟨S4096x1024, .bf16⟩
  | .hbm, ⟨16, _⟩ => ⟨S1024x2048, .bf16⟩
  | .hbm, ⟨17, _⟩ => ⟨S1024x256, .bf16⟩
  | .hbm, ⟨18, _⟩ => ⟨S64x256, .bf16⟩
  | .hbm, ⟨19, _⟩ => ⟨S4096x64, .bf16⟩
  | .hbm, ⟨20, _⟩ => ⟨S4096x64, .bf16⟩
  | .hbm, ⟨21, _⟩ => ⟨S4096x64, .bf16⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x256, .f32⟩
  | .hbm, ⟨26, _⟩ => ⟨S4096x256, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S4096x1024, .bf16⟩
  | .local _ .vmem, ⟨11, _⟩ => ⟨S4096x1024, .bf16⟩
  | .local _ .vmem, ⟨12, _⟩ => ⟨S1024x2048, .bf16⟩
  | .local _ .vmem, ⟨13, _⟩ => ⟨S1024x256, .bf16⟩
  | .local _ .vmem, ⟨14, _⟩ => ⟨S64x256, .bf16⟩
  | .local _ .vmem, ⟨15, _⟩ => ⟨S4096x64, .bf16⟩
  | .local _ .vmem, ⟨16, _⟩ => ⟨S4096x64, .bf16⟩
  | .local _ .vmem, ⟨17, _⟩ => ⟨S4096x64, .bf16⟩
  | .local _ .vmem, ⟨18, _⟩ => ⟨S1x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x256, .f32⟩
  | .local _ .vmem, ⟨24, _⟩ => ⟨S128x256, .f32⟩
  | .local _ .vmem, ⟨25, _⟩ => ⟨S128x256, .f32⟩
  | .local _ .vmem, ⟨26, _⟩ => ⟨S128x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev main_v9_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bitsLt_bf16_f32 : FTy.bits .bf16 < FTy.bits .f32
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  inb_S128x256_S128x256_0_0 : ∀ a, (![0, 0] : Fin 2 → Nat) a + S128x256.size a ≤ S128x256.size a
  h_S128x256 : 0 < S128x256.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S1024x2048_o0_0_S1024x1024 : S1024x2048.Slices ![0, 0] S1024x1024
  slices_S1024x2048_o0_1024_S1024x1024 : S1024x2048.Slices ![0, 1024] S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  slices_S128x1024_o0_0_S128x256 : S128x1024.Slices ![0, 0] S128x256
  slices_S128x1024_o0_256_S128x256 : S128x1024.Slices ![0, 256] S128x256
  slices_S128x1024_o0_512_S128x256 : S128x1024.Slices ![0, 512] S128x256
  slices_S128x1024_o0_768_S128x256 : S128x1024.Slices ![0, 768] S128x256
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S1024x1024_S128x1024_1_1_0_0_n_n_wf : DotDims.WF S128x1024 S1024x1024 S128x1024 [1] [1] [0] [0] [] []
  dot_S128x256_S1024x256_S128x1024_1_1_0_0_n_n_wf : DotDims.WF S128x256 S1024x256 S128x1024 [1] [1] [0] [0] [] []
  dot_S128x256_S64x256_S128x64_1_1_0_0_n_n_wf : DotDims.WF S128x256 S64x256 S128x64 [1] [1] [0] [0] [] []
  dot_S128x64_S4096x64_S128x4096_1_1_0_0_n_n_wf : DotDims.WF S128x64 S4096x64 S128x4096 [1] [1] [0] [0] [] []
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S4096x256.size a
  hwx0_3 : ∀ i : grid0.Coords, EltTy.bits .f32 = 32 ∨ (Rect.block (s := S4096x256) S128x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S4096x256.size a
  hwx0_4 : ∀ i : grid0.Coords, EltTy.bits .f32 = 32 ∨ (Rect.block (s := S4096x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x1024.size a ≤ S4096x1024.size a
  hwx0_5 : ∀ i : grid0.Coords, EltTy.bits .bf16 = 32 ∨ (Rect.block (s := S4096x1024) S4096x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096x1024.size a ≤ S4096x1024.size a
  hwx0_6 : ∀ i : grid0.Coords, EltTy.bits .bf16 = 32 ∨ (Rect.block (s := S4096x1024) S4096x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x2048.size a ≤ S1024x2048.size a
  hwx0_7 : ∀ i : grid0.Coords, EltTy.bits .bf16 = 32 ∨ (Rect.block (s := S1024x2048) S1024x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S1024x256.size a
  hwx0_8 : ∀ i : grid0.Coords, EltTy.bits .bf16 = 32 ∨ (Rect.block (s := S1024x256) S1024x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x256.size a ≤ S64x256.size a
  hwx0_9 : ∀ i : grid0.Coords, EltTy.bits .bf16 = 32 ∨ (Rect.block (s := S64x256) S64x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4096x64.size a ≤ S4096x64.size a
  hwx0_10 : ∀ i : grid0.Coords, EltTy.bits .bf16 = 32 ∨ (Rect.block (s := S4096x64) S4096x64.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4096x64.size a ≤ S4096x64.size a
  hwx0_11 : ∀ i : grid0.Coords, EltTy.bits .bf16 = 32 ∨ (Rect.block (s := S4096x64) S4096x64.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S4096x64.size a ≤ S4096x64.size a
  hwx0_12 : ∀ i : grid0.Coords, EltTy.bits .bf16 = 32 ∨ (Rect.block (s := S4096x64) S4096x64.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x1024.size a ≤ S4096x1024.size a
  hwx0_14 : ∀ i : grid0.Coords, EltTy.bits .f32 = 32 ∨ (Rect.block (s := S4096x1024) S128x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x1024.size a ≤ S4096x1024.size a
  hwx0_15 : ∀ i : grid0.Coords, EltTy.bits .f32 = 32 ∨ (Rect.block (s := S4096x1024) S128x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128x256.size a ≤ S4096x256.size a
  hwx0_16 : ∀ i : grid0.Coords, EltTy.bits .f32 = 32 ∨ (Rect.block (s := S4096x256) S128x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S128x256.size a ≤ S4096x256.size a
  hwx0_17 : ∀ i : grid0.Coords, EltTy.bits .f32 = 32 ∨ (Rect.block (s := S4096x256) S128x256.size (cc0_transform_17 i) (hinb0_17 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S128x256_S1024x256_S128x1024_1_1_0_0_n_n : DotDims S128x256 S1024x256 S128x1024 where
  lhsContracting := [1]
  rhsContracting := [1]
  lhsNonContracting := [0]
  rhsNonContracting := [0]
  lhsBatch := []
  rhsBatch := []
  wf := dot_S128x256_S1024x256_S128x1024_1_1_0_0_n_n_wf
def dot_S128x256_S64x256_S128x64_1_1_0_0_n_n : DotDims S128x256 S64x256 S128x64 where
  lhsContracting := [1]
  rhsContracting := [1]
  lhsNonContracting := [0]
  rhsNonContracting := [0]
  lhsBatch := []
  rhsBatch := []
  wf := dot_S128x256_S64x256_S128x64_1_1_0_0_n_n_wf
def dot_S128x64_S4096x64_S128x4096_1_1_0_0_n_n : DotDims S128x64 S4096x64 S128x4096 where
  lhsContracting := [1]
  rhsContracting := [1]
  lhsNonContracting := [0]
  rhsNonContracting := [0]
  lhsBatch := []
  rhsBatch := []
  wf := dot_S128x64_S4096x64_S128x4096_1_1_0_0_n_n_wf
def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4096x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S4096x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1024x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S64x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S4096x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S4096x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S4096x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9_0) S128x1024.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v9_1) S128x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v9_2) S128x256.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v9_3) S128x256.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x256 : Shape := ⟨2, ![4096, 256]⟩
abbrev S1024x2048 : Shape := ⟨2, ![1024, 2048]⟩
abbrev S1024x256 : Shape := ⟨2, ![1024, 256]⟩
abbrev S64x256 : Shape := ⟨2, ![64, 256]⟩
abbrev S4096x64 : Shape := ⟨2, ![4096, 64]⟩
abbrev S1024 : Shape := ⟨1, ![1024]⟩
abbrev S4096x2048 : Shape := ⟨2, ![4096, 2048]⟩
abbrev S2048x1024 : Shape := ⟨2, ![2048, 1024]⟩
abbrev S256x1024 : Shape := ⟨2, ![256, 1024]⟩
abbrev S1x1024 : Shape := ⟨2, ![1, 1024]⟩
abbrev S_ : Shape := ⟨0, ![]⟩
abbrev S256x64 : Shape := ⟨2, ![256, 64]⟩
abbrev S64x4096 : Shape := ⟨2, ![64, 4096]⟩
abbrev S4096x4096 : Shape := ⟨2, ![4096, 4096]⟩
abbrev S1024x4096 : Shape := ⟨2, ![1024, 4096]⟩

abbrev nBuf : Space → Nat
  | .hbm => 107
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x256, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S1024x256, .f32⟩
  | .hbm, ⟨9, _⟩ => ⟨S64x256, .f32⟩
  | .hbm, ⟨10, _⟩ => ⟨S4096x64, .f32⟩
  | .hbm, ⟨11, _⟩ => ⟨S4096x64, .f32⟩
  | .hbm, ⟨12, _⟩ => ⟨S4096x64, .f32⟩
  | .hbm, ⟨13, _⟩ => ⟨S1024, .f32⟩
  | .hbm, ⟨14, _⟩ => ⟨S4096x2048, .f32⟩
  | .hbm, ⟨15, _⟩ => ⟨S2048x1024, .f32⟩
  | .hbm, ⟨16, _⟩ => ⟨S4096x1024, .f32⟩
  | .hbm, ⟨17, _⟩ => ⟨S256x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S_, .f32⟩
  | .hbm, ⟨30, _⟩ => ⟨S4096x256, .f32⟩
  | .hbm, ⟨31, _⟩ => ⟨S4096x256, .f32⟩
  | .hbm, ⟨32, _⟩ => ⟨S_, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S4096x256, .f32⟩
  | .hbm, ⟨37, _⟩ => ⟨S_, .f32⟩
  | .hbm, ⟨38, _⟩ => ⟨S4096x256, .f32⟩
  | .hbm, ⟨39, _⟩ => ⟨S4096x256, .f32⟩
  | .hbm, ⟨40, _⟩ => ⟨S_, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S_, .f32⟩
  | .hbm, ⟨46, _⟩ => ⟨S4096x256, .f32⟩
  | .hbm, ⟨47, _⟩ => ⟨S4096x256, .f32⟩
  | .hbm, ⟨48, _⟩ => ⟨S_, .f32⟩
  | .hbm, ⟨49, _⟩ => ⟨S4096x256, .f32⟩
  | .hbm, ⟨50, _⟩ => ⟨S4096x256, .f32⟩
  | .hbm, ⟨51, _⟩ => ⟨S4096x256, .f32⟩
  | .hbm, ⟨52, _⟩ => ⟨S4096x256, .f32⟩
  | .hbm, ⟨53, _⟩ => ⟨S4096x256, .f32⟩
  | .hbm, ⟨54, _⟩ => ⟨S4096x256, .f32⟩
  | .hbm, ⟨55, _⟩ => ⟨S4096x256, .f32⟩
  | .hbm, ⟨56, _⟩ => ⟨S4096x256, .f32⟩
  | .hbm, ⟨57, _⟩ => ⟨S256x64, .f32⟩
  | .hbm, ⟨58, _⟩ => ⟨S4096x64, .f32⟩
  | .hbm, ⟨59, _⟩ => ⟨S64x4096, .f32⟩
  | .hbm, ⟨60, _⟩ => ⟨S4096x4096, .f32⟩
  | .hbm, ⟨61, _⟩ => ⟨S1024x4096, .f32⟩
  | .hbm, ⟨62, _⟩ => ⟨S4096x4096, .f32⟩
  | .hbm, ⟨63, _⟩ => ⟨S4096x4096, .f32⟩
  | .hbm, ⟨64, _⟩ => ⟨S64x4096, .f32⟩
  | .hbm, ⟨65, _⟩ => ⟨S4096x4096, .f32⟩
  | .hbm, ⟨66, _⟩ => ⟨S1024x4096, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S64x4096, .f32⟩
  | .hbm, ⟨71, _⟩ => ⟨S4096x4096, .f32⟩
  | .hbm, ⟨72, _⟩ => ⟨S4096x4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S_, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_5 : Ref sig .tc := ⟨.hbm, 79, rfl⟩
abbrev main_v59 : Ref sig .tc := ⟨.hbm, 80, rfl⟩
abbrev main_v60 : Ref sig .tc := ⟨.hbm, 81, rfl⟩
abbrev main_cst_6 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_7 : Ref sig .tc := ⟨.hbm, 87, rfl⟩
abbrev main_v65 : Ref sig .tc := ⟨.hbm, 88, rfl⟩
abbrev main_v66 : Ref sig .tc := ⟨.hbm, 89, rfl⟩
abbrev main_cst_8 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_9 : Ref sig .tc := ⟨.hbm, 95, rfl⟩
abbrev main_v71 : Ref sig .tc := ⟨.hbm, 96, rfl⟩
abbrev main_v72 : Ref sig .tc := ⟨.hbm, 97, rfl⟩
abbrev main_cst_10 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  transposes_S1024x2048_S2048x1024_1_0 : S1024x2048.Transposes [1, 0] S2048x1024
  transposes_S1024x256_S256x1024_1_0 : S1024x256.Transposes [1, 0] S256x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  slices_S4096x1024_S4096x256_0_0 : S4096x1024.Slices ![0, 0] S4096x256
  slices_S4096x1024_S4096x256_0_256 : S4096x1024.Slices ![0, 256] S4096x256
  slices_S4096x1024_S4096x256_0_512 : S4096x1024.Slices ![0, 512] S4096x256
  slices_S4096x1024_S4096x256_0_768 : S4096x1024.Slices ![0, 768] S4096x256
  bcast_S_S4096x256 : S_.BroadcastsInDim S4096x256 (![] : Fin 0 → Fin S4096x256.rank)
  transposes_S64x256_S256x64_1_0 : S64x256.Transposes [1, 0] S256x64
  transposes_S4096x64_S64x4096_1_0 : S4096x64.Transposes [1, 0] S64x4096
  transposes_S4096x1024_S1024x4096_1_0 : S4096x1024.Transposes [1, 0] S1024x4096
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x2048_S2048x1024_S4096x1024_1_0_0_1_n_n_wf : DotDims.WF S4096x2048 S2048x1024 S4096x1024 [1] [0] [0] [1] [] []
  dot_S4096x256_S256x1024_S4096x1024_1_0_0_1_n_n_wf : DotDims.WF S4096x256 S256x1024 S4096x1024 [1] [0] [0] [1] [] []
  dot_S4096x256_S256x64_S4096x64_1_0_0_1_n_n_wf : DotDims.WF S4096x256 S256x64 S4096x64 [1] [0] [0] [1] [] []
  dot_S4096x64_S64x4096_S4096x4096_1_0_0_1_n_n_wf : DotDims.WF S4096x64 S64x4096 S4096x4096 [1] [0] [0] [1] [] []
  dot_S4096x1024_S1024x4096_S4096x4096_1_0_0_1_n_n_wf : DotDims.WF S4096x1024 S1024x4096 S4096x4096 [1] [0] [0] [1] [] []

variable [Facts₀]

def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf
def dot_S4096x256_S256x1024_S4096x1024_1_0_0_1_n_n : DotDims S4096x256 S256x1024 S4096x1024 where
  lhsContracting := [1]
  rhsContracting := [0]
  lhsNonContracting := [0]
  rhsNonContracting := [1]
  lhsBatch := []
  rhsBatch := []
  wf := dot_S4096x256_S256x1024_S4096x1024_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.RowSpec.lean ====
/-
  One step of a hyper-LSTM cell, row by row, on the extended reals.

  Every batch row is transformed on its own: from its five activations (the input x, the main cell's hidden and cell state,
  the small "meta" cell's hidden and cell state) and the shared parameters. First the meta cell takes an LSTM step on the
  joined input [x, h]; its new hidden state is projected to a 64-wide embedding z; the embedding modulates, gate unit by
  gate unit, the main cell's two input products and supplies its bias; then the main cell takes its LSTM step.

  Written over plain functions of Fin-indices so that the same text reads a 128-row block and the whole 4096-row array.
-/
import Idealize.ShloMosaic.PureOps.Ideal
import Idealize.ShloMosaic.PureOps.Ideal.Laws
import Idealize.ShloMosaic.Lib.ValueIdx

noncomputable section

namespace Cert.HyperLstm

open Idealize.ShloMosaic Idealize.ShloMosaic.ValueIdx

/-- The cell's parameters, each as a function of (output unit, input unit); b is the meta cell's bias. In ih the
    columns 0 … 1023 act on the input and 1024 … 2047 on the main hidden state. -/
structure Weights where
  ih : Fin 1024 → Fin 2048 → EReal
  hh : Fin 1024 → Fin 256 → EReal
  hz : Fin 64 → Fin 256 → EReal
  iH : Fin 4096 → Fin 1024 → EReal
  HH : Fin 4096 → Fin 1024 → EReal
  dzi : Fin 4096 → Fin 64 → EReal
  dzH : Fin 4096 → Fin 64 → EReal
  bz : Fin 4096 → Fin 64 → EReal
  b : Fin 1024 → EReal

/-- One batch row: the input, the main cell's hidden and cell state, the meta cell's hidden and cell state. -/
structure Row where
  x : Fin 1024 → EReal
  h : Fin 1024 → EReal
  c : Fin 1024 → EReal
  mh : Fin 256 → EReal
  mc : Fin 256 → EReal

/-- Column n + q of a row of width b: unit q of the gate that starts at column n. -/
abbrev col (n : Nat) {a b : Nat} (h : n + a ≤ b) (q : Fin a) : Fin b := ⟨n + q.val, by have := q.isLt; omega⟩

variable (W : Weights) (r : Row)

/-- The meta cell's four gates before their nonlinearities: [x, h] · ihᵀ + mh · hhᵀ + b, the product with the joined
    input written as the sum of its two halves. -/
def metaPre (j : Fin 1024) : EReal :=
  ((∑ k : Fin 1024, r.x k * W.ih j (col 0 (by norm_num) k) + ∑ k : Fin 1024, r.h k * W.ih j (col 1024 (by norm_num) k))
    + ∑ k : Fin 256, r.mh k * W.hh j k) + W.b j

/-- The meta cell's new cell state: forget · old + input · candidate (gates in the order input, forget, candidate, output). -/
def metaC (q : Fin 256) : EReal :=
  Ideal.logistic (metaPre W r (col 256 (by norm_num) q)) * r.mc q
    + Ideal.logistic (metaPre W r (col 0 (by norm_num) q)) * Ideal.tanh (metaPre W r (col 512 (by norm_num) q))

/-- The meta cell's new hidden state: output gate · tanh of the new cell state. -/
def metaH (q : Fin 256) : EReal :=
  Ideal.logistic (metaPre W r (col 768 (by norm_num) q)) * Ideal.tanh (metaC W r q)

/-- The embedding: the meta cell's new hidden state projected by hz. -/
def embed (e : Fin 64) : EReal := ∑ k : Fin 256, metaH W r k * W.hz e k

/-- The main cell's four gates before their nonlinearities: the embedding's three projections scale the input product, scale
    the hidden product, and stand as the bias. -/
def mainPre (j : Fin 4096) : EReal :=
  ((∑ e : Fin 64, embed W r e * W.dzi j e) * (∑ k : Fin 1024, r.x k * W.iH j k)
    + (∑ e : Fin 64, embed W r e * W.dzH j e) * (∑ k : Fin 1024, r.h k * W.HH j k))
    + ∑ e : Fin 64, embed W r e * W.bz j e

/-- The main cell's new cell state. -/
def mainC (q : Fin 1024) : EReal :=
  Ideal.logistic (mainPre W r (col 1024 (by norm_num) q)) * r.c q
    + Ideal.logistic (mainPre W r (col 0 (by norm_num) q)) * Ideal.tanh (mainPre W r (col 2048 (by norm_num) q))

/-- The main cell's new hidden state. -/
def mainH (q : Fin 1024) : EReal :=
  Ideal.logistic (mainPre W r (col 3072 (by norm_num) q)) * Ideal.tanh (mainC W r q)

/-! ## Arrays as parameters and rows -/

/-- A two-axis array of extended reals. -/
abbrev Arr (n0 n1 : Nat) : Type := (⟨2, ![n0, n1]⟩ : Shape).Idx → EReal

/-- The parameters read off their arrays (each stored output unit × input unit; the bias as a function of its unit). -/
def weightsOf (iH HH : Arr 4096 1024) (ih : Arr 1024 2048) (hh : Arr 1024 256) (hz : Arr 64 256)
    (dzi dzH bz : Arr 4096 64) (b : Fin 1024 → EReal) : Weights where
  ih j k := ih (ix2 j k)
  hh j k := hh (ix2 j k)
  hz j k := hz (ix2 j k)
  iH j k := iH (ix2 j k)
  HH j k := HH (ix2 j k)
  dzi j k := dzi (ix2 j k)
  dzH j k := dzH (ix2 j k)
  bz j k := bz (ix2 j k)
  b := b

/-- Row p of five activation arrays of B rows. -/
def rowOf {B : Nat} (x h c : Arr B 1024) (mh mc : Arr B 256) (p : Fin B) : Row where
  x k := x (ix2 p k)
  h k := h (ix2 p k)
  c k := c (ix2 p k)
  mh k := mh (ix2 p k)
  mc k := mc (ix2 p k)

/-- The four results as arrays of B rows: each row the cell's step on that row of the activations. -/
def outMainH {B : Nat} (x h c : Arr B 1024) (mh mc : Arr B 256) : Arr B 1024 :=
  fun i => mainH W (rowOf x h c mh mc (i 0)) (i 1)
def outMainC {B : Nat} (x h c : Arr B 1024) (mh mc : Arr B 256) : Arr B 1024 :=
  fun i => mainC W (rowOf x h c mh mc (i 0)) (i 1)
def outMetaH {B : Nat} (x h c : Arr B 1024) (mh mc : Arr B 256) : Arr B 256 :=
  fun i => metaH W (rowOf x h c mh mc (i 0)) (i 1)
def outMetaC {B : Nat} (x h c : Arr B 1024) (mh mc : Arr B 256) : Arr B 256 :=
  fun i => metaC W (rowOf x h c mh mc (i 0)) (i 1)

/-! ## Two small laws both sides lean on -/

/-- The logistic function spelt out (one over one plus the exponential of the negation, each 1 given by the binary
    pattern of 1.0) is the logistic function. -/
theorem logistic_spelt (x : EReal) :
    Ideal.div (Ideal.ofBits .f32 0x3F800000#32) (Ideal.ofBits .f32 0x3F800000#32 + Ideal.exp (-x)) = Ideal.logistic x := by
  have h1 : Ideal.ofBits .f32 0x3F800000#32 = 1 := by
    simp [Ideal.ofBits, Ideal.ieee, -EReal.coe_mul]; norm_num
  rw [h1]; rfl

/-- A sum over the joined axis of two halves is the sum over the first half plus the sum over the second. -/
theorem sum_halves (f : Fin 2048 → EReal) :
    ∑ k : Fin 2048, f k = ∑ k : Fin 1024, f (col 0 (by norm_num) k) + ∑ k : Fin 1024, f (col 1024 (by norm_num) k) := by
  have h : ∑ k : Fin 2048, f k = _ := Fin.sum_univ_add (a := 1024) (b := 1024) (f : Fin (1024 + 1024) → EReal)
  rw [h]
  congr 1

end Cert.HyperLstm

end
-- ==== Proof.KernelRows.lean ====
/-
  A 128-row block of the kernel's four results, index by index, is the cell's step on the block's rows.

  The body stores four values, each a tree of matrix products, column slices (the four gates of a pre-activation), a row
  broadcast (the bias) and pointwise gates. A product into a zero accumulator is, at an index, the sum over the contracted
  unit of the two operands' entries; the body contracts the second axis of both operands (a product with the transposed
  parameter matrix). Reading the stored values at an index, in the order the body makes them, gives one after the other
  the meta cell's gates, its new states, the embedding, the main cell's gates and its new states.
-/
import proofs.«173578_j35691178230152_1_alg».proof.Proof.Gen.KernelIdeal.Skeleton
import proofs.«173578_j35691178230152_1_alg».proof.Proof.RowSpec
import Idealize.ShloMosaic.Lib.ValueIdx
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.ValueIdx Cert.HyperLstm

/-! ## A product with a transposed matrix, read at an index -/

section Dot

variable {M N K : Nat} (D : DotDims ⟨2, ![M, K]⟩ ⟨2, ![N, K]⟩ ⟨2, ![M, N]⟩)
  (hlc : D.lhsContracting = [1]) (hrc : D.rhsContracting = [1])
  (hln : D.lhsNonContracting = [0]) (hrn : D.rhsNonContracting = [0])
  (hlb : D.lhsBatch = []) (hrb : D.rhsBatch = [])
  (hr : D.contr.rank = 1) (hs : D.contr.size ⟨0, by omega⟩ = K)

include hln hlb in
/-- The left operand is read in the result's row. -/
theorem lhs_row (i : (⟨2, ![M, N]⟩ : Shape).Idx) (q : D.contr.Idx) : (D.lhsIdx i q 0).val = (i 0).val := by
  have hb : (0 : Fin 2) ∉ D.lhsBatch := by rw [hlb]; exact List.not_mem_nil
  have hn : (0 : Fin 2) ∈ D.lhsNonContracting := by rw [hln]; exact List.mem_singleton.mpr rfl
  unfold DotDims.lhsIdx
  rw [dif_neg hb, dif_pos hn]
  simp only [Fin.val_cast]
  have key : ∀ (a b : Nat) (ha : a < 2) (hb' : b < 2), a = b → (i ⟨a, ha⟩).val = (i ⟨b, hb'⟩).val :=
    fun a b ha hb' h => by subst h; rfl
  exact key _ _ _ _ (by simp [hlb, hln])

include hrn hrb hln hlb in
/-- The right operand is read in the row the result's column names. -/
theorem rhs_row (i : (⟨2, ![M, N]⟩ : Shape).Idx) (q : D.contr.Idx) : (D.rhsIdx i q 0).val = (i 1).val := by
  have hb : (0 : Fin 2) ∉ D.rhsBatch := by rw [hrb]; exact List.not_mem_nil
  have hn : (0 : Fin 2) ∈ D.rhsNonContracting := by rw [hrn]; exact List.mem_singleton.mpr rfl
  unfold DotDims.rhsIdx
  rw [dif_neg hb, dif_pos hn]
  simp only [Fin.val_cast]
  have key : ∀ (a b : Nat) (ha : a < 2) (hb' : b < 2), a = b → (i ⟨a, ha⟩).val = (i ⟨b, hb'⟩).val :=
    fun a b ha hb' h => by subst h; rfl
  exact key _ _ _ _ (by simp [hlb, hln, hrn])

include hlc hrc hln hrn hlb hrb hr hs in
/-- A product that contracts the second axis of both operands, into a zero accumulator, read at an index: the sum over the
    contracted unit of the two rows' entries. -/
theorem matmul_rows (L : (⟨2, ![M, K]⟩ : Shape).Idx → EReal) (R : (⟨2, ![N, K]⟩ : Shape).Idx → EReal) (p : Fin M) (j : Fin N) :
    FloatOps.matmul (F := Ideal) (φ₁ := .bf16) (φ₂ := .bf16) D none L R (constant (F := Ideal) ⟨2, ![M, N]⟩ .f32 0x00000000#32) (ix2 p j)
      = ∑ k : Fin K, L (ix2 p k) * R (ix2 j k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact lhs_row D hln hlb _ _
    | ⟨1, _⟩ => exact (D.lhsIdx_val_of_single hlc _ _).trans hk)
  have er : D.rhsIdx (ix2 p j) ((contrEquiv1 D K hr hs).symm k) = ix2 j k := funext fun a => Fin.ext (by
    match a with
    | ⟨0, _⟩ => exact rhs_row D hln hrn hlb hrb _ _
    | ⟨1, _⟩ => exact (D.rhsIdx_val_of_single hrc _ _).trans hk)
  rw [el, er]

end Dot

/-- A slice of columns n … n + C - 1, read at an index: the column moves by n. -/
theorem slice_cols {A B C : Nat} (n : Nat) (h : n + C ≤ B) (x : (⟨2, ![A, B]⟩ : Shape).Idx → EReal)
    (hs : (⟨2, ![A, B]⟩ : Shape).Slices ![0, n] ⟨2, ![A, C]⟩) (p : Fin A) (q : Fin C) :
    extractStridedSlice ⟨2, ![A, C]⟩ ![0, n] x hs (ix2 p q) = x (ix2 p (col n h q)) :=
  extractStridedSlice_apply ![0, n] x hs (ix2 p q) (ix2 p (col n h q)) (fun a => match a with
    | ⟨0, _⟩ => by show p.val = 0 + p.val; omega
    | ⟨1, _⟩ => rfl)

/-! ## The stored values at an index -/

section Payloads

variable (v0 v1 : Vec Ideal S128x1024 .f32) (v2 : Vec Ideal S128x256 .f32) (v6 : Vec Ideal S1024x2048 .bf16)
  (v10 : Vec Ideal S1024x256 .bf16) (v24 : Vec Ideal S1x1024 .f32)

/-- The three products of the meta cell's gates: the input and the main hidden state against the two column halves of one
    parameter matrix, the meta hidden state against the other. -/
theorem pay9_at (p : Fin 128) (j : Fin 1024) :
    k0_pay9 (F := Ideal) v0 v1 v2 v6 v10 (ix2 p j)
      = (∑ k : Fin 1024, v0 (ix2 p k) * v6 (ix2 j (col 0 (by norm_num) k))
          + ∑ k : Fin 1024, v1 (ix2 p k) * v6 (ix2 j (col 1024 (by norm_num) k)))
        + ∑ k : Fin 256, v2 (ix2 p k) * v10 (ix2 j k) := by
  unfold k0_pay9 k0_pay1 k0_pay2
  show (_ + _) + _ = _
  congr 1
  · congr 1
    · refine (matmul_rows dot_S128x1024_S1024x1024_S128x1024_1_1_0_0_n_n rfl rfl rfl rfl rfl rfl rfl rfl _ _ p j).trans ?_
      refine Finset.sum_congr rfl fun k _ => ?_
      rw [slice_cols 0 (by norm_num) _ _ j k, shapeCast_self]
      rfl
    · refine (matmul_rows dot_S128x1024_S1024x1024_S128x1024_1_1_0_0_n_n rfl rfl rfl rfl rfl rfl rfl rfl _ _ p j).trans ?_
      refine Finset.sum_congr rfl fun k _ => ?_
      rw [slice_cols 1024 (by norm_num) _ _ j k, shapeCast_self]
      rfl
  · refine (matmul_rows dot_S128x256_S1024x256_S128x1024_1_1_0_0_n_n rfl rfl rfl rfl rfl rfl rfl rfl _ _ p j).trans ?_
    refine Finset.sum_congr rfl fun k _ => ?_
    rw [shapeCast_self]
    rfl

/-- The bias row, laid under every row of the block. -/
theorem pay10_at (p : Fin 128) (j : Fin 1024) : k0_pay10 (F := Ideal) v24 (ix2 p j) = v24 (ix2 (0 : Fin 1) j) := by
  unfold k0_pay10
  rw [broadcastTo_apply _ broadcasts_S1x1024_S128x1024 (ix2 p j) (ix2 (0 : Fin 1) j) (fun a => match a with
    | ⟨0, _⟩ => rfl
    | ⟨1, _⟩ => rfl), shapeCast_self]

end Payloads

/-! ### The meta cell's gates -/

section Meta

variable (v30 v31 : FVec Ideal S128x1024 .f32) (v41 : Vec Ideal S128x256 .f32)

/-- The meta cell's new cell state from its pre-activations (the products plus the bias row): forget gate times the old
    state plus input gate times candidate. -/
theorem pay12_at (p : Fin 128) (q : Fin 256) :
    k0_pay12 (F := Ideal) v30 v31 v41 (ix2 p q)
      = Ideal.logistic (v30 (ix2 p (col 256 (by norm_num) q)) + v31 (ix2 p (col 256 (by norm_num) q))) * v41 (ix2 p q)
        + Ideal.logistic (v30 (ix2 p (col 0 (by norm_num) q)) + v31 (ix2 p (col 0 (by norm_num) q)))
          * Ideal.tanh (v30 (ix2 p (col 512 (by norm_num) q)) + v31 (ix2 p (col 512 (by norm_num) q))) := by
  unfold k0_pay12 k0_pay11
  show FloatOps.logistic _ * _ + FloatOps.logistic _ * FloatOps.tanh _ = _
  rw [slice_cols 256 (by norm_num) _ _ p q, slice_cols 0 (by norm_num) _ _ p q, slice_cols 512 (by norm_num) _ _ p q]
  rfl

/-- The meta cell's new hidden state: output gate times tanh of the new cell state. -/
theorem pay13_at (p : Fin 128) (q : Fin 256) :
    k0_pay13 (F := Ideal) v30 v31 v41 (ix2 p q)
      = Ideal.logistic (v30 (ix2 p (col 768 (by norm_num) q)) + v31 (ix2 p (col 768 (by norm_num) q)))
        * Ideal.tanh (k0_pay12 (F := Ideal) v30 v31 v41 (ix2 p q)) := by
  unfold k0_pay13 k0_pay11
  show FloatOps.logistic _ * FloatOps.tanh _ = _
  rw [slice_cols 768 (by norm_num) _ _ p q]
  rfl

end Meta

/-! ### The embedding and the main cell's gates -/

section Main

variable (v3 v4 : FVec Ideal S128x1024 .bf16) (v13 : FVec Ideal S64x256 .bf16) (v15 v17 : FVec Ideal S4096x1024 .bf16)
  (v19 v21 v23 : FVec Ideal S4096x64 .bf16) (v30 v31 : FVec Ideal S128x1024 .f32) (v41 : Vec Ideal S128x256 .f32)
  (v67 : Vec Ideal S128x1024 .f32)

/-- The embedding of row p: the meta cell's new hidden state projected. -/
abbrev zrow (p : Fin 128) (e : Fin 64) : EReal :=
  ∑ k : Fin 256, k0_pay13 (F := Ideal) v30 v31 v41 (ix2 p k) * v13 (ix2 e k)

/-- The main cell's pre-activations: the embedding's three projections scale the input product, scale the hidden product,
    and stand as the bias. -/
theorem pay14_at (p : Fin 128) (j : Fin 4096) :
    k0_pay14 (F := Ideal) v3 v4 v13 v15 v17 v19 v21 v23 v30 v31 v41 (ix2 p j)
      = ((∑ e : Fin 64, zrow v13 v30 v31 v41 p e * v19 (ix2 j e)) * (∑ k : Fin 1024, v3 (ix2 p k) * v15 (ix2 j k))
          + (∑ e : Fin 64, zrow v13 v30 v31 v41 p e * v21 (ix2 j e)) * (∑ k : Fin 1024, v4 (ix2 p k) * v17 (ix2 j k)))
        + ∑ e : Fin 64, zrow v13 v30 v31 v41 p e * v23 (ix2 j e) := by
  unfold k0_pay14
  show (_ * _ + _ * _) + _ = _
  refine congrArg₂ (· + ·) (congrArg₂ (· + ·) (congrArg₂ (· * ·) ?_ ?_) (congrArg₂ (· * ·) ?_ ?_)) ?_
  · refine (matmul_rows dot_S128x64_S4096x64_S128x4096_1_1_0_0_n_n rfl rfl rfl rfl rfl rfl rfl rfl _ _ p j).trans
      (Finset.sum_congr rfl fun e _ => ?_)
    exact congrArg (· * v19 (ix2 j e)) (matmul_rows dot_S128x256_S64x256_S128x64_1_1_0_0_n_n rfl rfl rfl rfl rfl rfl rfl rfl _ _ p e)
  · exact matmul_rows dot_S128x1024_S4096x1024_S128x4096_1_1_0_0_n_n rfl rfl rfl rfl rfl rfl rfl rfl _ _ p j
  · refine (matmul_rows dot_S128x64_S4096x64_S128x4096_1_1_0_0_n_n rfl rfl rfl rfl rfl rfl rfl rfl _ _ p j).trans
      (Finset.sum_congr rfl fun e _ => ?_)
    exact congrArg (· * v21 (ix2 j e)) (matmul_rows dot_S128x256_S64x256_S128x64_1_1_0_0_n_n rfl rfl rfl rfl rfl rfl rfl rfl _ _ p e)
  · exact matmul_rows dot_S128x1024_S4096x1024_S128x4096_1_1_0_0_n_n rfl rfl rfl rfl rfl rfl rfl rfl _ _ p j
  · refine (matmul_rows dot_S128x64_S4096x64_S128x4096_1_1_0_0_n_n rfl rfl rfl rfl rfl rfl rfl rfl _ _ p j).trans
      (Finset.sum_congr rfl fun e _ => ?_)
    exact congrArg (· * v23 (ix2 j e)) (matmul_rows dot_S128x256_S64x256_S128x64_1_1_0_0_n_n rfl rfl rfl rfl rfl rfl rfl rfl _ _ p e)

/-- The main cell's new cell state from its pre-activations. -/
theorem pay15_at (p : Fin 128) (q : Fin 1024) :
    k0_pay15 (F := Ideal) v3 v4 v13 v15 v17 v19 v21 v23 v30 v31 v41 v67 (ix2 p q)
      = Ideal.logistic (k0_pay14 (F := Ideal) v3 v4 v13 v15 v17 v19 v21 v23 v30 v31 v41 (ix2 p (col 1024 (by norm_num) q))) * v67 (ix2 p q)
        + Ideal.logistic (k0_pay14 (F := Ideal) v3 v4 v13 v15 v17 v19 v21 v23 v30 v31 v41 (ix2 p (col 0 (by norm_num) q)))
          * Ideal.tanh (k0_pay14 (F := Ideal) v3 v4 v13 v15 v17 v19 v21 v23 v30 v31 v41 (ix2 p (col 2048 (by norm_num) q))) := by
  unfold k0_pay15
  show FloatOps.logistic _ * _ + FloatOps.logistic _ * FloatOps.tanh _ = _
  rw [slice_cols 1024 (by norm_num) _ _ p q, slice_cols 0 (by norm_num) _ _ p q, slice_cols 2048 (by norm_num) _ _ p q]
  rfl

/-- The main cell's new hidden state. -/
theorem pay16_at (p : Fin 128) (q : Fin 1024) :
    k0_pay16 (F := Ideal) v3 v4 v13 v15 v17 v19 v21 v23 v30 v31 v41 v67 (ix2 p q)
      = Ideal.logistic (k0_pay14 (F := Ideal) v3 v4 v13 v15 v17 v19 v21 v23 v30 v31 v41 (ix2 p (col 3072 (by norm_num) q)))
        * Ideal.tanh (k0_pay15 (F := Ideal) v3 v4 v13 v15 v17 v19 v21 v23 v30 v31 v41 v67 (ix2 p q)) := by
  unfold k0_pay16
  show FloatOps.logistic _ * FloatOps.tanh _ = _
  rw [slice_cols 3072 (by norm_num) _ _ p q]
  rfl

end Main

/-! ## The four blocks -/

section Block

variable (P0 P1 : Vec Ideal S128x1024 .f32) (P2 : Vec Ideal S64x256 .bf16) (P3 P4 : Vec Ideal S4096x1024 .bf16)
  (P5 P6 P7 : Vec Ideal S4096x64 .bf16) (P8 : Vec Ideal S128x256 .f32) (P9 : Vec Ideal S1024x2048 .bf16)
  (P10 : Vec Ideal S1024x256 .bf16) (P11 : Vec Ideal S1x1024 .f32) (P12 : Vec Ideal S128x256 .f32)
  (P13 : Vec Ideal S128x1024 .f32)

/-- The parameters as the body loads them (the bias is a one-row array). -/
abbrev blockW : Weights := weightsOf P3 P4 P9 P10 P2 P5 P6 P7 (fun j => P11 (ix2 (0 : Fin 1) j))

/-- Row p of the block's five activations. -/
abbrev blockRow (p : Fin 128) : Row := rowOf P0 P1 P13 P8 P12 p

/-- The meta cell's pre-activations of row p: the three products plus the bias. -/
theorem metaPre_block (p : Fin 128) (j : Fin 1024) :
    k0_pay9 (F := Ideal) P0 P1 P8 P9 P10 (ix2 p j) + k0_pay10 (F := Ideal) P11 (ix2 p j) = metaPre (blockW P2 P3 P4 P5 P6 P7 P9 P10 P11) (blockRow P0 P1 P8 P12 P13 p) j := by
  rw [pay9_at, pay10_at]; rfl

/-- The block of the new meta cell state. -/
theorem block_metaC (p : Fin 128) (q : Fin 256) :
    k0_pay12 (F := Ideal) (k0_pay9 P0 P1 P8 P9 P10) (k0_pay10 P11) P12 (ix2 p q) = metaC (blockW P2 P3 P4 P5 P6 P7 P9 P10 P11) (blockRow P0 P1 P8 P12 P13 p) q := by
  rw [pay12_at]
  simp only [metaPre_block P0 P1 P2 P3 P4 P5 P6 P7 P8 P9 P10 P11 P12 P13]
  rfl

/-- The block of the new meta hidden state. -/
theorem block_metaH (p : Fin 128) (q : Fin 256) :
    k0_pay13 (F := Ideal) (k0_pay9 P0 P1 P8 P9 P10) (k0_pay10 P11) P12 (ix2 p q) = metaH (blockW P2 P3 P4 P5 P6 P7 P9 P10 P11) (blockRow P0 P1 P8 P12 P13 p) q := by
  rw [pay13_at, block_metaC P0 P1 P2 P3 P4 P5 P6 P7 P8 P9 P10 P11 P12 P13]
  simp only [metaPre_block P0 P1 P2 P3 P4 P5 P6 P7 P8 P9 P10 P11 P12 P13]
  rfl

/-- The parameter matrices reach the products as loaded: a cast to the same shape changes nothing. -/
theorem pay3_eq : k0_pay3 (F := Ideal) P2 = P2 := by unfold k0_pay3; exact shapeCast_self _ _
theorem pay4_eq : k0_pay4 (F := Ideal) P3 = P3 := by unfold k0_pay4; exact shapeCast_self _ _
theorem pay5_eq : k0_pay5 (F := Ideal) P4 = P4 := by unfold k0_pay5; exact shapeCast_self _ _
theorem pay6_eq : k0_pay6 (F := Ideal) P5 = P5 := by unfold k0_pay6; exact shapeCast_self _ _
theorem pay7_eq : k0_pay7 (F := Ideal) P6 = P6 := by unfold k0_pay7; exact shapeCast_self _ _
theorem pay8_eq : k0_pay8 (F := Ideal) P7 = P7 := by unfold k0_pay8; exact shapeCast_self _ _

/-- The embedding of row p. -/
theorem embed_block (p : Fin 128) (e : Fin 64) :
    zrow P2 (k0_pay9 P0 P1 P8 P9 P10) (k0_pay10 P11) P12 p e = embed (blockW P2 P3 P4 P5 P6 P7 P9 P10 P11) (blockRow P0 P1 P8 P12 P13 p) e :=
  Finset.sum_congr rfl fun k _ => by rw [block_metaH P0 P1 P2 P3 P4 P5 P6 P7 P8 P9 P10 P11 P12 P13 p k]; rfl

/-- The main cell's pre-activations of row p. -/
theorem mainPre_block (p : Fin 128) (j : Fin 4096) :
    k0_pay14 (F := Ideal) (k0_pay1 P0) (k0_pay2 P1) (k0_pay3 P2) (k0_pay4 P3) (k0_pay5 P4) (k0_pay6 P5) (k0_pay7 P6) (k0_pay8 P7) (k0_pay9 P0 P1 P8 P9 P10) (k0_pay10 P11) P12 (ix2 p j) = mainPre (blockW P2 P3 P4 P5 P6 P7 P9 P10 P11) (blockRow P0 P1 P8 P12 P13 p) j := by
  rw [pay3_eq, pay4_eq, pay5_eq, pay6_eq, pay7_eq, pay8_eq, pay14_at]
  simp only [embed_block P0 P1 P2 P3 P4 P5 P6 P7 P8 P9 P10 P11 P12 P13]
  rfl

/-- The block of the new main cell state. -/
theorem block_mainC (p : Fin 128) (q : Fin 1024) :
    k0_pay15 (F := Ideal) (k0_pay1 P0) (k0_pay2 P1) (k0_pay3 P2) (k0_pay4 P3) (k0_pay5 P4) (k0_pay6 P5) (k0_pay7 P6) (k0_pay8 P7) (k0_pay9 P0 P1 P8 P9 P10) (k0_pay10 P11) P12 P13 (ix2 p q) = mainC (blockW P2 P3 P4 P5 P6 P7 P9 P10 P11) (blockRow P0 P1 P8 P12 P13 p) q := by
  rw [pay15_at]
  simp only [mainPre_block P0 P1 P2 P3 P4 P5 P6 P7 P8 P9 P10 P11 P12 P13]
  rfl

/-- The block of the new main hidden state. -/
theorem block_mainH (p : Fin 128) (q : Fin 1024) :
    k0_pay16 (F := Ideal) (k0_pay1 P0) (k0_pay2 P1) (k0_pay3 P2) (k0_pay4 P3) (k0_pay5 P4) (k0_pay6 P5) (k0_pay7 P6) (k0_pay8 P7) (k0_pay9 P0 P1 P8 P9 P10) (k0_pay10 P11) P12 P13 (ix2 p q) = mainH (blockW P2 P3 P4 P5 P6 P7 P9 P10 P11) (blockRow P0 P1 P8 P12 P13 p) q := by
  rw [pay16_at, block_mainC P0 P1 P2 P3 P4 P5 P6 P7 P8 P9 P10 P11 P12 P13]
  simp only [mainPre_block P0 P1 P2 P3 P4 P5 P6 P7 P8 P9 P10 P11 P12 P13]
  rfl

end Block

end Cert.KernelIdeal.Rows

end
-- ==== Proof.RefRows.lean ====
/-
  The reference's four results, as whole arrays, are the cell's step on every row.

  The reference joins the input and the main hidden state along the unit axis and multiplies the joined rows by the
  transposed parameter matrix: a sum over the joined axis, which is the sum over its first half plus the sum over its
  second. Its logistic gates are spelt out as one over one plus the exponential of the negation. Everything else is the
  same sequence of products, slices and pointwise gates as in the row-wise description.
-/
import proofs.«173578_j35691178230152_1_alg».proof.Proof.Gen.ReferenceIdeal.Read
import proofs.«173578_j35691178230152_1_alg».proof.Proof.RowSpec
import Idealize.ShloMosaic.Lib.ValueIdx
import Idealize.ShloMosaic.Lib.Pipeline.Value
import Idealize.ShloMosaic.PureOps.Ideal.Laws

noncomputable section

namespace Cert.ReferenceIdeal.Rows

open Cert.ReferenceIdeal Cert.ReferenceIdeal.Gen Idealize.ShloMosaic Idealize.ShloMosaic.ValueIdx Cert.HyperLstm

variable (x0 x1 x2 : (⟨S4096x1024, .f32⟩ : BufTy).Contents (Elt Ideal)) (x3 x4 : (⟨S4096x256, .f32⟩ : BufTy).Contents (Elt Ideal))
  (x5 x6 : (⟨S4096x1024, .f32⟩ : BufTy).Contents (Elt Ideal)) (x7 : (⟨S1024x2048, .f32⟩ : BufTy).Contents (Elt Ideal))
  (x8 : (⟨S1024x256, .f32⟩ : BufTy).Contents (Elt Ideal)) (x9 : (⟨S64x256, .f32⟩ : BufTy).Contents (Elt Ideal))
  (x10 x11 x12 : (⟨S4096x64, .f32⟩ : BufTy).Contents (Elt Ideal)) (x13 : (⟨S1024, .f32⟩ : BufTy).Contents (Elt Ideal))

/-- The parameters as the reference receives them (the bias is a one-axis array). -/
abbrev refW : Weights := weightsOf x5 x6 x7 x8 x9 x10 x11 x12 (fun j => x13 (ix1 j))

/-! ## The joined input at an index -/

/-- In its first half the joined array is the input. -/
theorem join_left (b : Fin 4096) (k : Fin 1024) :
    Read.val_main_v0 (F := Ideal) x0 x1 (ix2 b (col 0 (by norm_num) k)) = x0 (ix2 b k) := by
  unfold Read.val_main_v0
  exact concatenate_pair_apply_left (t := S4096x2048) 1 x0 x1 _ (ix2 b (col 0 (b := 2048) (by norm_num) k)) rfl (ix2 b k) (fun c => match c with
    | ⟨0, _⟩ => rfl
    | ⟨1, _⟩ => by show k.val = 0 + k.val; omega)

/-- In its second half the joined array is the main hidden state. -/
theorem join_right (b : Fin 4096) (k : Fin 1024) :
    Read.val_main_v0 (F := Ideal) x0 x1 (ix2 b (col 1024 (by norm_num) k)) = x1 (ix2 b k) := by
  unfold Read.val_main_v0
  exact concatenate_pair_apply_right (t := S4096x2048) 1 x0 x1 _ (ix2 b (col 1024 (b := 2048) (by norm_num) k)) rfl rfl (ix2 b k) (fun c => match c with
    | ⟨0, _⟩ => fun _ => rfl
    | ⟨1, _⟩ => fun h => absurd rfl h) (by show k.val + 1024 = 1024 + k.val; omega)

/-! ## The meta cell's gates before their nonlinearities -/

/-- The product of the joined rows with the transposed parameter matrix, as its two halves. -/
theorem v2_at (b : Fin 4096) (j : Fin 1024) :
    Read.val_main_v2 (F := Ideal) x0 x1 x7 (ix2 b j)
      = ∑ k : Fin 1024, x0 (ix2 b k) * x7 (ix2 j (col 0 (by norm_num) k))
        + ∑ k : Fin 1024, x1 (ix2 b k) * x7 (ix2 j (col 1024 (by norm_num) k)) := by
  rw [Read.val_main_v2_apply, sum_halves]
  congr 1
  · refine Finset.sum_congr rfl fun k _ => ?_
    have el : Read.lidx_main_v2 (ix2 b j) (col 0 (by norm_num) k) = ix2 b (col 0 (by norm_num) k) := by
      funext a; match a with | ⟨0, _⟩ => rfl | ⟨1, _⟩ => rfl
    have er : Read.idx_main_v1 (Read.ridx_main_v2 (ix2 b j) (col 0 (by norm_num) k)) = ix2 j (col 0 (by norm_num) k) := by
      funext a; match a with | ⟨0, _⟩ => rfl | ⟨1, _⟩ => rfl
    rw [Read.val_main_v1_apply, el, er, join_left]
  · refine Finset.sum_congr rfl fun k _ => ?_
    have el : Read.lidx_main_v2 (ix2 b j) (col 1024 (by norm_num) k) = ix2 b (col 1024 (by norm_num) k) := by
      funext a; match a with | ⟨0, _⟩ => rfl | ⟨1, _⟩ => rfl
    have er : Read.idx_main_v1 (Read.ridx_main_v2 (ix2 b j) (col 1024 (by norm_num) k)) = ix2 j (col 1024 (by norm_num) k) := by
      funext a; match a with | ⟨0, _⟩ => rfl | ⟨1, _⟩ => rfl
    rw [Read.val_main_v1_apply, el, er, join_right]

/-- The product of the meta hidden state with its transposed parameter matrix. -/
theorem v4_at (b : Fin 4096) (j : Fin 1024) :
    Read.val_main_v4 (F := Ideal) x3 x8 (ix2 b j) = ∑ k : Fin 256, x3 (ix2 b k) * x8 (ix2 j k) := by
  rw [Read.val_main_v4_apply]
  refine Finset.sum_congr rfl fun k _ => ?_
  have el : Read.lidx_main_v4 (ix2 b j) k = ix2 b k := by
    funext a; match a with | ⟨0, _⟩ => rfl | ⟨1, _⟩ => rfl
  have er : Read.idx_main_v3 (Read.ridx_main_v4 (ix2 b j) k) = ix2 j k := by
    funext a; match a with | ⟨0, _⟩ => rfl | ⟨1, _⟩ => rfl
  rw [Read.val_main_v3_apply, el, er]

/-- The bias, repeated down the rows. -/
theorem v7_at (b : Fin 4096) (j : Fin 1024) :
    Read.val_main_v7 (F := Ideal) x13 (ix2 b j) = x13 (ix1 j) := by
  have e : Read.idx_main_v6 (Read.idx_main_v7 (ix2 b j)) = ix1 j := by
    funext a; match a with | ⟨0, _⟩ => rfl
  rw [Read.val_main_v7_apply, Read.val_main_v6_apply, e]

/-- The reference's pre-activation of the meta cell is the row's. -/
theorem v8_at (b : Fin 4096) (j : Fin 1024) :
    Read.val_main_v8 (F := Ideal) x0 x1 x3 x7 x8 x13 (ix2 b j)
      = metaPre (refW x5 x6 x7 x8 x9 x10 x11 x12 x13) (rowOf x0 x1 x2 x3 x4 b) j := by
  rw [Read.val_main_v8_apply, Read.val_main_v5_apply, v2_at, v4_at, v7_at]
  rfl

/-! ## The meta cell's step -/

/-- The four gate slices of the meta cell's pre-activation at a row and a gate unit. -/
theorem v9_at (b : Fin 4096) (q : Fin 256) :
    Read.val_main_v9 (F := Ideal) x0 x1 x3 x7 x8 x13 (ix2 b q)
      = metaPre (refW x5 x6 x7 x8 x9 x10 x11 x12 x13) (rowOf x0 x1 x2 x3 x4 b) (col 0 (by norm_num) q) := by
  have e : Read.idx_main_v9 (ix2 b q) = ix2 b (col 0 (by norm_num) q) := by
    funext a; match a with
    | ⟨0, _⟩ => rfl
    | ⟨1, _⟩ => exact Fin.ext (by show q.val = 0 + q.val; omega)
  rw [Read.val_main_v9_apply, e, v8_at x0 x1 x2 x3 x4 x5 x6 x7 x8 x9 x10 x11 x12 x13]

theorem v10_at (b : Fin 4096) (q : Fin 256) :
    Read.val_main_v10 (F := Ideal) x0 x1 x3 x7 x8 x13 (ix2 b q)
      = metaPre (refW x5 x6 x7 x8 x9 x10 x11 x12 x13) (rowOf x0 x1 x2 x3 x4 b) (col 256 (by norm_num) q) := by
  have e : Read.idx_main_v10 (ix2 b q) = ix2 b (col 256 (by norm_num) q) := by
    funext a; match a with | ⟨0, _⟩ => rfl | ⟨1, _⟩ => rfl
  rw [Read.val_main_v10_apply, e, v8_at x0 x1 x2 x3 x4 x5 x6 x7 x8 x9 x10 x11 x12 x13]

theorem v11_at (b : Fin 4096) (q : Fin 256) :
    Read.val_main_v11 (F := Ideal) x0 x1 x3 x7 x8 x13 (ix2 b q)
      = metaPre (refW x5 x6 x7 x8 x9 x10 x11 x12 x13) (rowOf x0 x1 x2 x3 x4 b) (col 512 (by norm_num) q) := by
  have e : Read.idx_main_v11 (ix2 b q) = ix2 b (col 512 (by norm_num) q) := by
    funext a; match a with | ⟨0, _⟩ => rfl | ⟨1, _⟩ => rfl
  rw [Read.val_main_v11_apply, e, v8_at x0 x1 x2 x3 x4 x5 x6 x7 x8 x9 x10 x11 x12 x13]

theorem v12_at (b : Fin 4096) (q : Fin 256) :
    Read.val_main_v12 (F := Ideal) x0 x1 x3 x7 x8 x13 (ix2 b q)
      = metaPre (refW x5 x6 x7 x8 x9 x10 x11 x12 x13) (rowOf x0 x1 x2 x3 x4 b) (col 768 (by norm_num) q) := by
  have e : Read.idx_main_v12 (ix2 b q) = ix2 b (col 768 (by norm_num) q) := by
    funext a; match a with | ⟨0, _⟩ => rfl | ⟨1, _⟩ => rfl
  rw [Read.val_main_v12_apply, e, v8_at x0 x1 x2 x3 x4 x5 x6 x7 x8 x9 x10 x11 x12 x13]

/-- The input gate: the spelt-out logistic function of its slice. -/
theorem v18_at (i : S4096x256.Idx) :
    Read.val_main_v18 (F := Ideal) x0 x1 x3 x7 x8 x13 i
      = Ideal.logistic (Read.val_main_v9 (F := Ideal) x0 x1 x3 x7 x8 x13 i) := by
  rw [Read.val_main_v18_apply, Read.val_main_v17_apply, Read.val_main_cst_0_apply, Read.val_main_v16_apply,
    Read.val_main_v15_apply, Read.val_main_cst_apply, Read.val_main_v14_apply, Read.val_main_v13_apply]
  exact logistic_spelt _

/-- The forget gate. -/
theorem v24_at (i : S4096x256.Idx) :
    Read.val_main_v24 (F := Ideal) x0 x1 x3 x7 x8 x13 i
      = Ideal.logistic (Read.val_main_v10 (F := Ideal) x0 x1 x3 x7 x8 x13 i) := by
  rw [Read.val_main_v24_apply, Read.val_main_v23_apply, Read.val_main_cst_2_apply, Read.val_main_v22_apply,
    Read.val_main_v21_apply, Read.val_main_cst_1_apply, Read.val_main_v20_apply, Read.val_main_v19_apply]
  exact logistic_spelt _

/-- The output gate. -/
theorem v30_at (i : S4096x256.Idx) :
    Read.val_main_v30 (F := Ideal) x0 x1 x3 x7 x8 x13 i
      = Ideal.logistic (Read.val_main_v12 (F := Ideal) x0 x1 x3 x7 x8 x13 i) := by
  rw [Read.val_main_v30_apply, Read.val_main_v29_apply, Read.val_main_cst_4_apply, Read.val_main_v28_apply,
    Read.val_main_v27_apply, Read.val_main_cst_3_apply, Read.val_main_v26_apply, Read.val_main_v25_apply]
  exact logistic_spelt _

/-- The reference's new meta cell state at a row and a unit is the row's. -/
theorem v34_at (b : Fin 4096) (q : Fin 256) :
    Read.val_main_v34 (F := Ideal) x0 x1 x3 x4 x7 x8 x13 (ix2 b q)
      = metaC (refW x5 x6 x7 x8 x9 x10 x11 x12 x13) (rowOf x0 x1 x2 x3 x4 b) q := by
  rw [Read.val_main_v34_apply, Read.val_main_v32_apply, Read.val_main_v33_apply, Read.val_main_v31_apply,
    v24_at, v18_at, v9_at x0 x1 x2 x3 x4 x5 x6 x7 x8 x9 x10 x11 x12 x13, v10_at x0 x1 x2 x3 x4 x5 x6 x7 x8 x9 x10 x11 x12 x13,
    v11_at x0 x1 x2 x3 x4 x5 x6 x7 x8 x9 x10 x11 x12 x13]
  rfl

/-- The reference's new meta hidden state at a row and a unit is the row's. -/
theorem v36_at (b : Fin 4096) (q : Fin 256) :
    Read.val_main_v36 (F := Ideal) x0 x1 x3 x4 x7 x8 x13 (ix2 b q)
      = metaH (refW x5 x6 x7 x8 x9 x10 x11 x12 x13) (rowOf x0 x1 x2 x3 x4 b) q := by
  rw [Read.val_main_v36_apply, Read.val_main_v35_apply, v30_at, v12_at x0 x1 x2 x3 x4 x5 x6 x7 x8 x9 x10 x11 x12 x13,
    v34_at x0 x1 x2 x3 x4 x5 x6 x7 x8 x9 x10 x11 x12 x13]
  rfl

/-- The new meta cell state. -/
theorem ref_metaC :
    Read.val_main_v34 (F := Ideal) x0 x1 x3 x4 x7 x8 x13 = outMetaC (refW x5 x6 x7 x8 x9 x10 x11 x12 x13) x0 x1 x2 x3 x4 := by
  funext i
  obtain ⟨b, q, rfl⟩ : ∃ (b : Fin 4096) (q : Fin 256), i = ix2 b q := ⟨i 0, i 1, eq_ix2 i⟩
  exact v34_at x0 x1 x2 x3 x4 x5 x6 x7 x8 x9 x10 x11 x12 x13 b q

/-- The new meta hidden state. -/
theorem ref_metaH :
    Read.val_main_v36 (F := Ideal) x0 x1 x3 x4 x7 x8 x13 = outMetaH (refW x5 x6 x7 x8 x9 x10 x11 x12 x13) x0 x1 x2 x3 x4 := by
  funext i
  obtain ⟨b, q, rfl⟩ : ∃ (b : Fin 4096) (q : Fin 256), i = ix2 b q := ⟨i 0, i 1, eq_ix2 i⟩
  exact v36_at x0 x1 x2 x3 x4 x5 x6 x7 x8 x9 x10 x11 x12 x13 b q

/-! ## The embedding -/

/-- The reference's embedding at a row and a unit is the row's. -/
theorem v38_at (b : Fin 4096) (e : Fin 64) :
    Read.val_main_v38 (F := Ideal) x0 x1 x3 x4 x7 x8 x9 x13 (ix2 b e) = embed (refW x5 x6 x7 x8 x9 x10 x11 x12 x13) (rowOf x0 x1 x2 x3 x4 b) e := by
  rw [Read.val_main_v38_apply]
  refine Finset.sum_congr rfl fun k _ => ?_
  have el : Read.lidx_main_v38 (ix2 b e) k = ix2 b k := by
    funext a; match a with | ⟨0, _⟩ => rfl | ⟨1, _⟩ => rfl
  have er : Read.idx_main_v37 (Read.ridx_main_v38 (ix2 b e) k) = ix2 e k := by
    funext a; match a with | ⟨0, _⟩ => rfl | ⟨1, _⟩ => rfl
  rw [Read.val_main_v37_apply, el, er, v36_at x0 x1 x2 x3 x4 x5 x6 x7 x8 x9 x10 x11 x12 x13]
  rfl

/-! ## The main cell's gates before their nonlinearities -/

/-- The embedding's projection that scales the input product. -/
theorem v40_at (b : Fin 4096) (j : Fin 4096) :
    Read.val_main_v40 (F := Ideal) x0 x1 x3 x4 x7 x8 x9 x10 x13 (ix2 b j)
      = ∑ e : Fin 64, embed (refW x5 x6 x7 x8 x9 x10 x11 x12 x13) (rowOf x0 x1 x2 x3 x4 b) e * x10 (ix2 j e) := by
  rw [Read.val_main_v40_apply]
  refine Finset.sum_congr rfl fun e _ => ?_
  have el : Read.lidx_main_v40 (ix2 b j) e = ix2 b e := by
    funext a; match a with | ⟨0, _⟩ => rfl | ⟨1, _⟩ => rfl
  have er : Read.idx_main_v39 (Read.ridx_main_v40 (ix2 b j) e) = ix2 j e := by
    funext a; match a with | ⟨0, _⟩ => rfl | ⟨1, _⟩ => rfl
  rw [Read.val_main_v39_apply, el, er, v38_at x0 x1 x2 x3 x4 x5 x6 x7 x8 x9 x10 x11 x12 x13]

/-- The input product. -/
theorem v42_at (b : Fin 4096) (j : Fin 4096) :
    Read.val_main_v42 (F := Ideal) x0 x5 (ix2 b j) = ∑ k : Fin 1024, x0 (ix2 b k) * x5 (ix2 j k) := by
  rw [Read.val_main_v42_apply]
  refine Finset.sum_congr rfl fun k _ => ?_
  have el : Read.lidx_main_v42 (ix2 b j) k = ix2 b k := by
    funext a; match a with | ⟨0, _⟩ => rfl | ⟨1, _⟩ => rfl
  have er : Read.idx_main_v41 (Read.ridx_main_v42 (ix2 b j) k) = ix2 j k := by
    funext a; match a with | ⟨0, _⟩ => rfl | ⟨1, _⟩ => rfl
  rw [Read.val_main_v41_apply, el, er]

/-- The embedding's projection that scales the hidden product. -/
theorem v45_at (b : Fin 4096) (j : Fin 4096) :
    Read.val_main_v45 (F := Ideal) x0 x1 x3 x4 x7 x8 x9 x11 x13 (ix2 b j)
      = ∑ e : Fin 64, embed (refW x5 x6 x7 x8 x9 x10 x11 x12 x13) (rowOf x0 x1 x2 x3 x4 b) e * x11 (ix2 j e) := by
  rw [Read.val_main_v45_apply]
  refine Finset.sum_congr rfl fun e _ => ?_
  have el : Read.lidx_main_v45 (ix2 b j) e = ix2 b e := by
    funext a; match a with | ⟨0, _⟩ => rfl | ⟨1, _⟩ => rfl
  have er : Read.idx_main_v44 (Read.ridx_main_v45 (ix2 b j) e) = ix2 j e := by
    funext a; match a with | ⟨0, _⟩ => rfl | ⟨1, _⟩ => rfl
  rw [Read.val_main_v44_apply, el, er, v38_at x0 x1 x2 x3 x4 x5 x6 x7 x8 x9 x10 x11 x12 x13]

/-- The hidden product. -/
theorem v47_at (b : Fin 4096) (j : Fin 4096) :
    Read.val_main_v47 (F := Ideal) x1 x6 (ix2 b j) = ∑ k : Fin 1024, x1 (ix2 b k) * x6 (ix2 j k) := by
  rw [Read.val_main_v47_apply]
  refine Finset.sum_congr rfl fun k _ => ?_
  have el : Read.lidx_main_v47 (ix2 b j) k = ix2 b k := by
    funext a; match a with | ⟨0, _⟩ => rfl | ⟨1, _⟩ => rfl
  have er : Read.idx_main_v46 (Read.ridx_main_v47 (ix2 b j) k) = ix2 j k := by
    funext a; match a with | ⟨0, _⟩ => rfl | ⟨1, _⟩ => rfl
  rw [Read.val_main_v46_apply, el, er]

/-- The embedding's projection that stands as the bias. -/
theorem v51_at (b : Fin 4096) (j : Fin 4096) :
    Read.val_main_v51 (F := Ideal) x0 x1 x3 x4 x7 x8 x9 x12 x13 (ix2 b j)
      = ∑ e : Fin 64, embed (refW x5 x6 x7 x8 x9 x10 x11 x12 x13) (rowOf x0 x1 x2 x3 x4 b) e * x12 (ix2 j e) := by
  rw [Read.val_main_v51_apply]
  refine Finset.sum_congr rfl fun e _ => ?_
  have el : Read.lidx_main_v51 (ix2 b j) e = ix2 b e := by
    funext a; match a with | ⟨0, _⟩ => rfl | ⟨1, _⟩ => rfl
  have er : Read.idx_main_v50 (Read.ridx_main_v51 (ix2 b j) e) = ix2 j e := by
    funext a; match a with | ⟨0, _⟩ => rfl | ⟨1, _⟩ => rfl
  rw [Read.val_main_v50_apply, el, er, v38_at x0 x1 x2 x3 x4 x5 x6 x7 x8 x9 x10 x11 x12 x13]

/-- The reference's pre-activation of the main cell is the row's. -/
theorem v52_at (b : Fin 4096) (j : Fin 4096) :
    Read.val_main_v52 (F := Ideal) x0 x1 x3 x4 x5 x6 x7 x8 x9 x10 x11 x12 x13 (ix2 b j) = mainPre (refW x5 x6 x7 x8 x9 x10 x11 x12 x13) (rowOf x0 x1 x2 x3 x4 b) j := by
  rw [Read.val_main_v52_apply, Read.val_main_v49_apply, Read.val_main_v43_apply, Read.val_main_v48_apply,
    v40_at x0 x1 x2 x3 x4 x5 x6 x7 x8 x9 x10 x11 x12 x13, v42_at, v45_at x0 x1 x2 x3 x4 x5 x6 x7 x8 x9 x10 x11 x12 x13, v47_at, v51_at x0 x1 x2 x3 x4 x5 x6 x7 x8 x9 x10 x11 x12 x13]
  rfl

/-! ## The main cell's step -/

theorem v53_at (b : Fin 4096) (q : Fin 1024) :
    Read.val_main_v53 (F := Ideal) x0 x1 x3 x4 x5 x6 x7 x8 x9 x10 x11 x12 x13 (ix2 b q)
      = mainPre (refW x5 x6 x7 x8 x9 x10 x11 x12 x13) (rowOf x0 x1 x2 x3 x4 b) (col 0 (by norm_num) q) := by
  have e : Read.idx_main_v53 (ix2 b q) = ix2 b (col 0 (by norm_num) q) := by
    funext a; match a with
    | ⟨0, _⟩ => rfl
    | ⟨1, _⟩ => exact Fin.ext (by show q.val = 0 + q.val; omega)
  rw [Read.val_main_v53_apply, e, v52_at x0 x1 x2 x3 x4 x5 x6 x7 x8 x9 x10 x11 x12 x13]

theorem v54_at (b : Fin 4096) (q : Fin 1024) :
    Read.val_main_v54 (F := Ideal) x0 x1 x3 x4 x5 x6 x7 x8 x9 x10 x11 x12 x13 (ix2 b q)
      = mainPre (refW x5 x6 x7 x8 x9 x10 x11 x12 x13) (rowOf x0 x1 x2 x3 x4 b) (col 1024 (by norm_num) q) := by
  have e : Read.idx_main_v54 (ix2 b q) = ix2 b (col 1024 (by norm_num) q) := by
    funext a; match a with
    | ⟨0, _⟩ => rfl
    | ⟨1, _⟩ => rfl
  rw [Read.val_main_v54_apply, e, v52_at x0 x1 x2 x3 x4 x5 x6 x7 x8 x9 x10 x11 x12 x13]

theorem v55_at (b : Fin 4096) (q : Fin 1024) :
    Read.val_main_v55 (F := Ideal) x0 x1 x3 x4 x5 x6 x7 x8 x9 x10 x11 x12 x13 (ix2 b q)
      = mainPre (refW x5 x6 x7 x8 x9 x10 x11 x12 x13) (rowOf x0 x1 x2 x3 x4 b) (col 2048 (by norm_num) q) := by
  have e : Read.idx_main_v55 (ix2 b q) = ix2 b (col 2048 (by norm_num) q) := by
    funext a; match a with
    | ⟨0, _⟩ => rfl
    | ⟨1, _⟩ => rfl
  rw [Read.val_main_v55_apply, e, v52_at x0 x1 x2 x3 x4 x5 x6 x7 x8 x9 x10 x11 x12 x13]

theorem v56_at (b : Fin 4096) (q : Fin 1024) :
    Read.val_main_v56 (F := Ideal) x0 x1 x3 x4 x5 x6 x7 x8 x9 x10 x11 x12 x13 (ix2 b q)
      = mainPre (refW x5 x6 x7 x8 x9 x10 x11 x12 x13) (rowOf x0 x1 x2 x3 x4 b) (col 3072 (by norm_num) q) := by
  have e : Read.idx_main_v56 (ix2 b q) = ix2 b (col 3072 (by norm_num) q) := by
    funext a; match a with
    | ⟨0, _⟩ => rfl
    | ⟨1, _⟩ => rfl
  rw [Read.val_main_v56_apply, e, v52_at x0 x1 x2 x3 x4 x5 x6 x7 x8 x9 x10 x11 x12 x13]

/-- The input gate. -/
theorem v62_at (i : S4096x1024.Idx) :
    Read.val_main_v62 (F := Ideal) x0 x1 x3 x4 x5 x6 x7 x8 x9 x10 x11 x12 x13 i
      = Ideal.logistic (Read.val_main_v53 (F := Ideal) x0 x1 x3 x4 x5 x6 x7 x8 x9 x10 x11 x12 x13 i) := by
  rw [Read.val_main_v62_apply, Read.val_main_v61_apply, Read.val_main_cst_6_apply, Read.val_main_v60_apply,
    Read.val_main_v59_apply, Read.val_main_cst_5_apply, Read.val_main_v58_apply, Read.val_main_v57_apply]
  exact logistic_spelt _

/-- The forget gate. -/
theorem v68_at (i : S4096x1024.Idx) :
    Read.val_main_v68 (F := Ideal) x0 x1 x3 x4 x5 x6 x7 x8 x9 x10 x11 x12 x13 i
      = Ideal.logistic (Read.val_main_v54 (F := Ideal) x0 x1 x3 x4 x5 x6 x7 x8 x9 x10 x11 x12 x13 i) := by
  rw [Read.val_main_v68_apply, Read.val_main_v67_apply, Read.val_main_cst_8_apply, Read.val_main_v66_apply,
    Read.val_main_v65_apply, Read.val_main_cst_7_apply, Read.val_main_v64_apply, Read.val_main_v63_apply]
  exact logistic_spelt _

/-- The output gate. -/
theorem v74_at (i : S4096x1024.Idx) :
    Read.val_main_v74 (F := Ideal) x0 x1 x3 x4 x5 x6 x7 x8 x9 x10 x11 x12 x13 i
      = Ideal.logistic (Read.val_main_v56 (F := Ideal) x0 x1 x3 x4 x5 x6 x7 x8 x9 x10 x11 x12 x13 i) := by
  rw [Read.val_main_v74_apply, Read.val_main_v73_apply, Read.val_main_cst_10_apply, Read.val_main_v72_apply,
    Read.val_main_v71_apply, Read.val_main_cst_9_apply, Read.val_main_v70_apply, Read.val_main_v69_apply]
  exact logistic_spelt _

/-- The reference's new main cell state at a row and a unit is the row's. -/
theorem v78_at (b : Fin 4096) (q : Fin 1024) :
    Read.val_main_v78 (F := Ideal) x0 x1 x2 x3 x4 x5 x6 x7 x8 x9 x10 x11 x12 x13 (ix2 b q) = mainC (refW x5 x6 x7 x8 x9 x10 x11 x12 x13) (rowOf x0 x1 x2 x3 x4 b) q := by
  rw [Read.val_main_v78_apply, Read.val_main_v76_apply, Read.val_main_v77_apply, Read.val_main_v75_apply,
    v68_at, v62_at, v53_at x0 x1 x2 x3 x4 x5 x6 x7 x8 x9 x10 x11 x12 x13, v54_at x0 x1 x2 x3 x4 x5 x6 x7 x8 x9 x10 x11 x12 x13, v55_at x0 x1 x2 x3 x4 x5 x6 x7 x8 x9 x10 x11 x12 x13]
  rfl

/-- The reference's new main hidden state at a row and a unit is the row's. -/
theorem v80_at (b : Fin 4096) (q : Fin 1024) :
    Read.val_main_v80 (F := Ideal) x0 x1 x2 x3 x4 x5 x6 x7 x8 x9 x10 x11 x12 x13 (ix2 b q) = mainH (refW x5 x6 x7 x8 x9 x10 x11 x12 x13) (rowOf x0 x1 x2 x3 x4 b) q := by
  rw [Read.val_main_v80_apply, Read.val_main_v79_apply, v74_at, v56_at x0 x1 x2 x3 x4 x5 x6 x7 x8 x9 x10 x11 x12 x13, v78_at x0 x1 x2 x3 x4 x5 x6 x7 x8 x9 x10 x11 x12 x13]
  rfl

/-- The new main cell state. -/
theorem ref_mainC :
    Read.val_main_v78 (F := Ideal) x0 x1 x2 x3 x4 x5 x6 x7 x8 x9 x10 x11 x12 x13
      = outMainC (refW x5 x6 x7 x8 x9 x10 x11 x12 x13) x0 x1 x2 x3 x4 := by
  funext i
  obtain ⟨b, q, rfl⟩ : ∃ (b : Fin 4096) (q : Fin 1024), i = ix2 b q := ⟨i 0, i 1, eq_ix2 i⟩
  exact v78_at x0 x1 x2 x3 x4 x5 x6 x7 x8 x9 x10 x11 x12 x13 b q

/-- The new main hidden state. -/
theorem ref_mainH :
    Read.val_main_v80 (F := Ideal) x0 x1 x2 x3 x4 x5 x6 x7 x8 x9 x10 x11 x12 x13
      = outMainH (refW x5 x6 x7 x8 x9 x10 x11 x12 x13) x0 x1 x2 x3 x4 := by
  funext i
  obtain ⟨b, q, rfl⟩ : ∃ (b : Fin 4096) (q : Fin 1024), i = ix2 b q := ⟨i 0, i 1, eq_ix2 i⟩
  exact v80_at x0 x1 x2 x3 x4 x5 x6 x7 x8 x9 x10 x11 x12 x13 b q

end Cert.ReferenceIdeal.Rows

end
-- ==== Proof.Blocks.lean ====
/-
  From blocks to arrays: after the kernel's run each of its four result arrays is the cell's step on every row of the
  argument arrays.

  Grid point t handles rows 128·t … 128·t + 127: the five activation windows and the four result windows all move with t
  along the row axis, and every parameter window is its whole array at every point. So what point t writes back to a
  result array is block t of the row-wise result of the whole arrays; the 32 blocks tile the 4096 rows, so the array after
  the run is that row-wise result. The parameter arrays the windows stage are the arguments with their float format
  changed (the identity on extended reals), and the bias re-laid as one row.
-/
import proofs.«173578_j35691178230152_1_alg».proof.Proof.KernelValueBlocks
import proofs.«173578_j35691178230152_1_alg».proof.Proof.RowSpec
import proofs.«173578_j35691178230152_1_alg».proof.Proof.KernelRows
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Cert.HyperLstm
open Idealize.ShloMosaic.Pipeline (Dat)

variable (m : (ℓ : Loc nD τ sig) → Buf (Elt Ideal) ℓ) (ρ : Dev nD → PrngReg)

/-- The parameters as @main receives them on device c. -/
abbrev argW (c : Dev nD) : Weights :=
  weightsOf (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12))
    (fun j => m ((c : Thread nD τ).loc main_arg13) (ix1 j))

/-! ## Where each block sits in its array -/

/-- The zero offsets, spelt as a literal vector, are the zero function. -/
theorem zeros2 : (![0, 0] : Fin 2 → Nat) = fun _ => 0 := funext fun a => by fin_cases a <;> rfl

/-- The index maps of the windows that move with the grid, decided over its 32 points: at point t the block index is
    (t, 0), for the five activations and the four results. -/
theorem moving_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_14.index t (0 : Fin 2) = t.val ∧ win0_14.index t (1 : Fin 2) = 0)
    ∧ (win0_15.index t (0 : Fin 2) = t.val ∧ win0_15.index t (1 : Fin 2) = 0)
    ∧ (win0_16.index t (0 : Fin 2) = t.val ∧ win0_16.index t (1 : Fin 2) = 0)
    ∧ (win0_17.index t (0 : Fin 2) = t.val ∧ win0_17.index t (1 : Fin 2) = 0) :=
  (by decide +kernel : ∀ t : Fin grid0.N, _)

/-- The index maps of the nine parameter windows: block (0, 0) at every point. -/
theorem param_index : ∀ t : Fin cfg0.N,
    (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

/-! ## The activation blocks: rows 128 t … 128 t + 127 of the arguments -/

/-- The input block at point t, at (p, k), is the input at (128 t + p, k). -/
theorem act0 (c : Dev nD) (t : Fin cfg0.N) (y : S128x1024.Idx) (i : S4096x1024.Idx)
    (h0 : (i 0).val = 128 * t.val + (y 0).val) (h1 : (i 1).val = (y 1).val) :
    (iblk m c 0 t : Vec Ideal S128x1024 .f32) y = (m ((c : Thread nD τ).loc main_arg0) : S4096x1024.Idx → EReal) i := by
  have hi := (moving_index t).1
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 128 + 1 * (y 0).val = (i 0).val; rw [hi.1, h0]; omega
  | ⟨1, _⟩ => show win0_0.index t (1 : Fin 2) * 1024 + 1 * (y 1).val = (i 1).val; rw [hi.2, h1]; omega

/-- The main hidden state's block. -/
theorem act1 (c : Dev nD) (t : Fin cfg0.N) (y : S128x1024.Idx) (i : S4096x1024.Idx)
    (h0 : (i 0).val = 128 * t.val + (y 0).val) (h1 : (i 1).val = (y 1).val) :
    (iblk m c 1 t : Vec Ideal S128x1024 .f32) y = (m ((c : Thread nD τ).loc main_arg1) : S4096x1024.Idx → EReal) i := by
  have hi := (moving_index t).2.1
  unfold iblk
  rw [View.read_apply]
  show V m c main_arg1 _ = m ((c : Thread nD τ).loc main_arg1) _
  rw [V_main_arg1]
  congr 1
  funext a
  apply Fin.ext
  match a with
  | ⟨0, _⟩ => show win0_1.index t (0 : Fin 2) * 128 + 1 * (y 0).val = (i 0).val; rw [hi.1, h0]; omega
  | ⟨1, _⟩ => show win0_1.index t (1 : Fin 2) * 1024 + 1 * (y 1).val = (i 1).val; rw [hi.2, h1]; omega

/-- The main cell state's block. -/
theorem act2 (c : Dev nD) (t : Fin cfg0.N) (y : S128x1024.Idx) (i : S4096x1024.Idx)
    (h0 : (i 0).val = 128 * t.val + (y 0).val) (h1 : (i 1).val = (y 1).val) :
    (iblk m c 2 t : Vec Ideal S128x1024 .f32) y = (m ((c : Thread nD τ).loc main_arg2) : S4096x1024.Idx → EReal) i := by
  have hi := (moving_index t).2.2.1
  unfold iblk
  rw [View.read_apply]
  show V m c main_arg2 _ = m ((c : Thread nD τ).loc main_arg2) _
  rw [V_main_arg2]
  congr 1
  funext a
  apply Fin.ext
  match a with
  | ⟨0, _⟩ => show win0_2.index t (0 : Fin 2) * 128 + 1 * (y 0).val = (i 0).val; rw [hi.1, h0]; omega
  | ⟨1, _⟩ => show win0_2.index t (1 : Fin 2) * 1024 + 1 * (y 1).val = (i 1).val; rw [hi.2, h1]; omega

/-- The meta hidden state's block. -/
theorem act3 (c : Dev nD) (t : Fin cfg0.N) (y : S128x256.Idx) (i : S4096x256.Idx)
    (h0 : (i 0).val = 128 * t.val + (y 0).val) (h1 : (i 1).val = (y 1).val) :
    (iblk m c 3 t : Vec Ideal S128x256 .f32) y = (m ((c : Thread nD τ).loc main_arg3) : S4096x256.Idx → EReal) i := by
  have hi := (moving_index t).2.2.2.1
  unfold iblk
  rw [View.read_apply]
  show V m c main_arg3 _ = m ((c : Thread nD τ).loc main_arg3) _
  rw [V_main_arg3]
  congr 1
  funext a
  apply Fin.ext
  match a with
  | ⟨0, _⟩ => show win0_3.index t (0 : Fin 2) * 128 + 1 * (y 0).val = (i 0).val; rw [hi.1, h0]; omega
  | ⟨1, _⟩ => show win0_3.index t (1 : Fin 2) * 256 + 1 * (y 1).val = (i 1).val; rw [hi.2, h1]; omega

/-- The meta cell state's block. -/
theorem act4 (c : Dev nD) (t : Fin cfg0.N) (y : S128x256.Idx) (i : S4096x256.Idx)
    (h0 : (i 0).val = 128 * t.val + (y 0).val) (h1 : (i 1).val = (y 1).val) :
    (iblk m c 4 t : Vec Ideal S128x256 .f32) y = (m ((c : Thread nD τ).loc main_arg4) : S4096x256.Idx → EReal) i := by
  have hi := (moving_index t).2.2.2.2.1
  unfold iblk
  rw [View.read_apply]
  show V m c main_arg4 _ = m ((c : Thread nD τ).loc main_arg4) _
  rw [V_main_arg4]
  congr 1
  funext a
  apply Fin.ext
  match a with
  | ⟨0, _⟩ => show win0_4.index t (0 : Fin 2) * 128 + 1 * (y 0).val = (i 0).val; rw [hi.1, h0]; omega
  | ⟨1, _⟩ => show win0_4.index t (1 : Fin 2) * 256 + 1 * (y 1).val = (i 1).val; rw [hi.2, h1]; omega

/-- Row p of the activation blocks at point t is row 128 t + p of the activation arrays. -/
theorem row_eq (c : Dev nD) (t : Fin cfg0.N) (p : Fin 128) (r : Fin 4096) (hr : r.val = 128 * t.val + p.val) :
    Rows.blockRow (iblk m c 0 t) (iblk m c 1 t) (iblk m c 3 t) (iblk m c 4 t) (iblk m c 2 t) p
      = rowOf (m ((c : Thread nD τ).loc main_arg0)) (m ((c : Thread nD τ).loc main_arg1)) (m ((c : Thread nD τ).loc main_arg2))
          (m ((c : Thread nD τ).loc main_arg3)) (m ((c : Thread nD τ).loc main_arg4)) r := by
  show rowOf _ _ _ _ _ _ = _
  unfold rowOf
  rw [Row.mk.injEq]
  exact ⟨funext fun k => act0 m c t (ix2 p k) (ix2 r k) hr rfl, funext fun k => act1 m c t (ix2 p k) (ix2 r k) hr rfl,
    funext fun k => act2 m c t (ix2 p k) (ix2 r k) hr rfl, funext fun k => act3 m c t (ix2 p k) (ix2 r k) hr rfl,
    funext fun k => act4 m c t (ix2 p k) (ix2 r k) hr rfl⟩

/-! ## The parameter blocks: the whole arrays, the arguments with their float format changed -/

/-- The array window 5 stages is the argument W_iH with its format changed: on extended reals, the argument. -/
theorem staged5 (c : Dev nD) : @Eq (S4096x1024.Idx → EReal) (V m c main_v0) (m ((c : Thread nD τ).loc main_arg5)) := by
  dsimp only [Gen.V, Gen.hostOps0]; after_results; rfl

/-- Its block at any point is the whole argument. -/
theorem par5 (c : Dev nD) (t : Fin cfg0.N) (i : S4096x1024.Idx) :
    (iblk m c 5 t : Vec Ideal S4096x1024 .bf16) i = (m ((c : Thread nD τ).loc main_arg5) : S4096x1024.Idx → EReal) i := by
  have hi := (param_index t).1
  unfold iblk
  rw [View.read_apply]
  show V m c main_v0 _ = m ((c : Thread nD τ).loc main_arg5) _
  rw [staged5]
  congr 1
  funext a
  apply Fin.ext
  match a with
  | ⟨0, _⟩ => show win0_5.index t (0 : Fin 2) * 4096 + 1 * (i 0).val = (i 0).val; rw [hi.1]; omega
  | ⟨1, _⟩ => show win0_5.index t (1 : Fin 2) * 1024 + 1 * (i 1).val = (i 1).val; rw [hi.2]; omega

/-- The array window 6 stages is the argument W_HH with its format changed. -/
theorem staged6 (c : Dev nD) : @Eq (S4096x1024.Idx → EReal) (V m c main_v1) (m ((c : Thread nD τ).loc main_arg6)) := by
  dsimp only [Gen.V, Gen.hostOps0]; after_results; rfl

theorem par6 (c : Dev nD) (t : Fin cfg0.N) (i : S4096x1024.Idx) :
    (iblk m c 6 t : Vec Ideal S4096x1024 .bf16) i = (m ((c : Thread nD τ).loc main_arg6) : S4096x1024.Idx → EReal) i := by
  have hi := (param_index t).2.1
  unfold iblk
  rw [View.read_apply]
  show V m c main_v1 _ = m ((c : Thread nD τ).loc main_arg6) _
  rw [staged6]
  congr 1
  funext a
  apply Fin.ext
  match a with
  | ⟨0, _⟩ => show win0_6.index t (0 : Fin 2) * 4096 + 1 * (i 0).val = (i 0).val; rw [hi.1]; omega
  | ⟨1, _⟩ => show win0_6.index t (1 : Fin 2) * 1024 + 1 * (i 1).val = (i 1).val; rw [hi.2]; omega

/-- The array window 7 stages is the argument W_ih with its format changed. -/
theorem staged7 (c : Dev nD) : @Eq (S1024x2048.Idx → EReal) (V m c main_v2) (m ((c : Thread nD τ).loc main_arg7)) := by
  dsimp only [Gen.V, Gen.hostOps0]; after_results; rfl

theorem par7 (c : Dev nD) (t : Fin cfg0.N) (i : S1024x2048.Idx) :
    (iblk m c 7 t : Vec Ideal S1024x2048 .bf16) i = (m ((c : Thread nD τ).loc main_arg7) : S1024x2048.Idx → EReal) i := by
  have hi := (param_index t).2.2.1
  unfold iblk
  rw [View.read_apply]
  show V m c main_v2 _ = m ((c : Thread nD τ).loc main_arg7) _
  rw [staged7]
  congr 1
  funext a
  apply Fin.ext
  match a with
  | ⟨0, _⟩ => show win0_7.index t (0 : Fin 2) * 1024 + 1 * (i 0).val = (i 0).val; rw [hi.1]; omega
  | ⟨1, _⟩ => show win0_7.index t (1 : Fin 2) * 2048 + 1 * (i 1).val = (i 1).val; rw [hi.2]; omega

/-- The array window 8 stages is the argument W_hh with its format changed. -/
theorem staged8 (c : Dev nD) : @Eq (S1024x256.Idx → EReal) (V m c main_v3) (m ((c : Thread nD τ).loc main_arg8)) := by
  dsimp only [Gen.V, Gen.hostOps0]; after_results; rfl

theorem par8 (c : Dev nD) (t : Fin cfg0.N) (i : S1024x256.Idx) :
    (iblk m c 8 t : Vec Ideal S1024x256 .bf16) i = (m ((c : Thread nD τ).loc main_arg8) : S1024x256.Idx → EReal) i := by
  have hi := (param_index t).2.2.2.1
  unfold iblk
  rw [View.read_apply]
  show V m c main_v3 _ = m ((c : Thread nD τ).loc main_arg8) _
  rw [staged8]
  congr 1
  funext a
  apply Fin.ext
  match a with
  | ⟨0, _⟩ => show win0_8.index t (0 : Fin 2) * 1024 + 1 * (i 0).val = (i 0).val; rw [hi.1]; omega
  | ⟨1, _⟩ => show win0_8.index t (1 : Fin 2) * 256 + 1 * (i 1).val = (i 1).val; rw [hi.2]; omega

/-- The array window 9 stages is the argument W_hz with its format changed. -/
theorem staged9 (c : Dev nD) : @Eq (S64x256.Idx → EReal) (V m c main_v4) (m ((c : Thread nD τ).loc main_arg9)) := by
  dsimp only [Gen.V, Gen.hostOps0]; after_results; rfl

theorem par9 (c : Dev nD) (t : Fin cfg0.N) (i : S64x256.Idx) :
    (iblk m c 9 t : Vec Ideal S64x256 .bf16) i = (m ((c : Thread nD τ).loc main_arg9) : S64x256.Idx → EReal) i := by
  have hi := (param_index t).2.2.2.2.1
  unfold iblk
  rw [View.read_apply]
  show V m c main_v4 _ = m ((c : Thread nD τ).loc main_arg9) _
  rw [staged9]
  congr 1
  funext a
  apply Fin.ext
  match a with
  | ⟨0, _⟩ => show win0_9.index t (0 : Fin 2) * 64 + 1 * (i 0).val = (i 0).val; rw [hi.1]; omega
  | ⟨1, _⟩ => show win0_9.index t (1 : Fin 2) * 256 + 1 * (i 1).val = (i 1).val; rw [hi.2]; omega

/-- The array window 10 stages is the argument W_dziH with its format changed. -/
theorem staged10 (c : Dev nD) : @Eq (S4096x64.Idx → EReal) (V m c main_v5) (m ((c : Thread nD τ).loc main_arg10)) := by
  dsimp only [Gen.V, Gen.hostOps0]; after_results; rfl

theorem par10 (c : Dev nD) (t : Fin cfg0.N) (i : S4096x64.Idx) :
    (iblk m c 10 t : Vec Ideal S4096x64 .bf16) i = (m ((c : Thread nD τ).loc main_arg10) : S4096x64.Idx → EReal) i := by
  have hi := (param_index t).2.2.2.2.2.1
  unfold iblk
  rw [View.read_apply]
  show V m c main_v5 _ = m ((c : Thread nD τ).loc main_arg10) _
  rw [staged10]
  congr 1
  funext a
  apply Fin.ext
  match a with
  | ⟨0, _⟩ => show win0_10.index t (0 : Fin 2) * 4096 + 1 * (i 0).val = (i 0).val; rw [hi.1]; omega
  | ⟨1, _⟩ => show win0_10.index t (1 : Fin 2) * 64 + 1 * (i 1).val = (i 1).val; rw [hi.2]; omega

/-- The array window 11 stages is the argument W_dzHH with its format changed. -/
theorem staged11 (c : Dev nD) : @Eq (S4096x64.Idx → EReal) (V m c main_v6) (m ((c : Thread nD τ).loc main_arg11)) := by
  dsimp only [Gen.V, Gen.hostOps0]; after_results; rfl

theorem par11 (c : Dev nD) (t : Fin cfg0.N) (i : S4096x64.Idx) :
    (iblk m c 11 t : Vec Ideal S4096x64 .bf16) i = (m ((c : Thread nD τ).loc main_arg11) : S4096x64.Idx → EReal) i := by
  have hi := (param_index t).2.2.2.2.2.2.1
  unfold iblk
  rw [View.read_apply]
  show V m c main_v6 _ = m ((c : Thread nD τ).loc main_arg11) _
  rw [staged11]
  congr 1
  funext a
  apply Fin.ext
  match a with
  | ⟨0, _⟩ => show win0_11.index t (0 : Fin 2) * 4096 + 1 * (i 0).val = (i 0).val; rw [hi.1]; omega
  | ⟨1, _⟩ => show win0_11.index t (1 : Fin 2) * 64 + 1 * (i 1).val = (i 1).val; rw [hi.2]; omega

/-- The array window 12 stages is the argument W_bzH with its format changed. -/
theorem staged12 (c : Dev nD) : @Eq (S4096x64.Idx → EReal) (V m c main_v7) (m ((c : Thread nD τ).loc main_arg12)) := by
  dsimp only [Gen.V, Gen.hostOps0]; after_results; rfl

theorem par12 (c : Dev nD) (t : Fin cfg0.N) (i : S4096x64.Idx) :
    (iblk m c 12 t : Vec Ideal S4096x64 .bf16) i = (m ((c : Thread nD τ).loc main_arg12) : S4096x64.Idx → EReal) i := by
  have hi := (param_index t).2.2.2.2.2.2.2.1
  unfold iblk
  rw [View.read_apply]
  show V m c main_v7 _ = m ((c : Thread nD τ).loc main_arg12) _
  rw [staged12]
  congr 1
  funext a
  apply Fin.ext
  match a with
  | ⟨0, _⟩ => show win0_12.index t (0 : Fin 2) * 4096 + 1 * (i 0).val = (i 0).val; rw [hi.1]; omega
  | ⟨1, _⟩ => show win0_12.index t (1 : Fin 2) * 64 + 1 * (i 1).val = (i 1).val; rw [hi.2]; omega

/-- The array window 13 stages is the bias laid out as one row. -/
theorem staged13 (c : Dev nD) : @Eq (S1x1024.Idx → EReal) (V m c main_v8)
    (shapeCast S1x1024 (m ((c : Thread nD τ).loc main_arg13) : S1024.Idx → EReal) shapeCasts_S1024_S1x1024) := by
  dsimp only [Gen.V, Gen.hostOps0]; after_results; rfl

/-- Its block at any point, at (0, j), is the bias at j. -/
theorem par13 (c : Dev nD) (t : Fin cfg0.N) (j : Fin 1024) :
    (iblk m c 13 t : Vec Ideal S1x1024 .f32) (ix2 (0 : Fin 1) j) = (m ((c : Thread nD τ).loc main_arg13) : S1024.Idx → EReal) (ix1 j) := by
  have hi := (param_index t).2.2.2.2.2.2.2.2
  unfold iblk
  rw [View.read_apply]
  show V m c main_v8 _ = m ((c : Thread nD τ).loc main_arg13) _
  rw [staged13]
  refine shapeCast_apply (s := S1024) (t := S1x1024) _ _ _ _ ?_
  rw [Shape.rowMajor_val_one, Shape.rowMajor_val_two]
  show j.val = (win0_13.index t (0 : Fin 2) * 1 + 1 * 0) * 1024 + (win0_13.index t (1 : Fin 2) * 1024 + 1 * j.val)
  rw [hi.1, hi.2]; omega

/-- So the parameters the body loads at any point are the parameters @main received. -/
theorem weights_eq (c : Dev nD) (t : Fin cfg0.N) :
    Rows.blockW (iblk m c 9 t) (iblk m c 5 t) (iblk m c 6 t) (iblk m c 10 t) (iblk m c 11 t) (iblk m c 12 t)
      (iblk m c 7 t) (iblk m c 8 t) (iblk m c 13 t) = argW m c := by
  have e5 : @Eq (S4096x1024.Idx → EReal) (iblk m c 5 t) (m ((c : Thread nD τ).loc main_arg5)) := funext (par5 m c t)
  have e6 : @Eq (S4096x1024.Idx → EReal) (iblk m c 6 t) (m ((c : Thread nD τ).loc main_arg6)) := funext (par6 m c t)
  have e7 : @Eq (S1024x2048.Idx → EReal) (iblk m c 7 t) (m ((c : Thread nD τ).loc main_arg7)) := funext (par7 m c t)
  have e8 : @Eq (S1024x256.Idx → EReal) (iblk m c 8 t) (m ((c : Thread nD τ).loc main_arg8)) := funext (par8 m c t)
  have e9 : @Eq (S64x256.Idx → EReal) (iblk m c 9 t) (m ((c : Thread nD τ).loc main_arg9)) := funext (par9 m c t)
  have e10 : @Eq (S4096x64.Idx → EReal) (iblk m c 10 t) (m ((c : Thread nD τ).loc main_arg10)) := funext (par10 m c t)
  have e11 : @Eq (S4096x64.Idx → EReal) (iblk m c 11 t) (m ((c : Thread nD τ).loc main_arg11)) := funext (par11 m c t)
  have e12 : @Eq (S4096x64.Idx → EReal) (iblk m c 12 t) (m ((c : Thread nD τ).loc main_arg12)) := funext (par12 m c t)
  have e13 : @Eq (Fin 1024 → EReal) (fun j => (iblk m c 13 t : Vec Ideal S1x1024 .f32) (ix2 (0 : Fin 1) j))
      (fun j => (m ((c : Thread nD τ).loc main_arg13) : S1024.Idx → EReal) (ix1 j)) := funext (par13 m c t)
  show weightsOf _ _ _ _ _ _ _ _ _ = weightsOf _ _ _ _ _ _ _ _ _
  unfold weightsOf
  rw [Weights.mk.injEq]
  exact ⟨funext fun j => funext fun k => congrFun e7 (ix2 j k), funext fun j => funext fun k => congrFun e8 (ix2 j k),
    funext fun j => funext fun k => congrFun e9 (ix2 j k), funext fun j => funext fun k => congrFun e5 (ix2 j k),
    funext fun j => funext fun k => congrFun e6 (ix2 j k), funext fun j => funext fun k => congrFun e10 (ix2 j k),
    funext fun j => funext fun k => congrFun e11 (ix2 j k), funext fun j => funext fun k => congrFun e12 (ix2 j k), e13⟩

/-! ## The new main hidden state (result window 14) -/

/-- What the body leaves in the block, at (p, q), is the cell's main hidden state on row p of the loaded blocks. -/
theorem point14 (x0 x1 x2 : Vec Ideal S128x1024 .f32) (x3 x4 : Vec Ideal S128x256 .f32) (x5 x6 : Vec Ideal S4096x1024 .bf16)
    (x7 : Vec Ideal S1024x2048 .bf16) (x8 : Vec Ideal S1024x256 .bf16) (x9 : Vec Ideal S64x256 .bf16)
    (x10 x11 x12 : Vec Ideal S4096x64 .bf16) (x13 : Vec Ideal S1x1024 .f32) (y : S128x1024.Idx) :
    out0_14 x0 x1 x2 x3 x4 x5 x6 x7 x8 x9 x10 x11 x12 x13 y
      = mainH (Rows.blockW x9 x5 x6 x10 x11 x12 x7 x8 x13) (Rows.blockRow x0 x1 x3 x4 x2 (y 0)) (y 1) := by
  unfold out0_14
  rw [View.canon_unit_zero zeros2]
  simp only [View.ld_unit_zero (S := S128x1024) zeros2, View.ld_unit_zero (S := S128x256) zeros2,
    View.ld_unit_zero (S := S4096x1024) zeros2, View.ld_unit_zero (S := S1024x2048) zeros2,
    View.ld_unit_zero (S := S1024x256) zeros2, View.ld_unit_zero (S := S64x256) zeros2,
    View.ld_unit_zero (S := S4096x64) zeros2, View.ld_unit_zero (S := S1x1024) zeros2]
  exact (congrArg _ (eq_ix2 y)).trans (Rows.block_mainH x0 x1 x9 x5 x6 x10 x11 x12 x3 x7 x8 x13 x4 x2 (y 0) (y 1))

/-- What point t writes back is block t of the row-wise result of the whole arrays. -/
theorem flushed14_eq (c : Dev nD) (t : Fin cfg0.N) :
    (dats m 0 c).flushed 14 t = ((cfg0.win 14).blk t).view.read (Elt Ideal)
      (outMainH (argW m c) (m ((c : Thread nD τ).loc main_arg0)) (m ((c : Thread nD τ).loc main_arg1))
        (m ((c : Thread nD τ).loc main_arg2)) (m ((c : Thread nD τ).loc main_arg3)) (m ((c : Thread nD τ).loc main_arg4))) := by
  have hi := (moving_index t).2.2.2.2.2.1
  rw [ValueBlocks.flushed14]
  funext y
  rw [View.read_apply]
  show out0_14 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) y
    = outMainH (argW m c) (m ((c : Thread nD τ).loc main_arg0)) (m ((c : Thread nD τ).loc main_arg1))
        (m ((c : Thread nD τ).loc main_arg2)) (m ((c : Thread nD τ).loc main_arg3)) (m ((c : Thread nD τ).loc main_arg4))
        (((cfg0.win 14).blk t).view.emb y)
  refine (point14 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) y).trans ?_
  unfold outMainH
  have hr : (((cfg0.win 14).blk t).view.emb y 0).val = 128 * t.val + (y 0).val := by
    show win0_14.index t (0 : Fin 2) * 128 + 1 * (y 0).val = _
    rw [hi.1]; omega
  have hq : y 1 = ((cfg0.win 14).blk t).view.emb y 1 := Fin.ext (by
    show (y 1).val = win0_14.index t (1 : Fin 2) * 1024 + 1 * (y 1).val
    rw [hi.2]; omega)
  rw [weights_eq m c t, row_eq m c t (y 0) _ hr, ← hq]

/-- An index of the array is in point t's block iff each coordinate is in the block's range on its axis. -/
theorem mem_blk14 (t : Fin cfg0.N) (i : S4096x1024.Idx) :
    i ∈ ((cfg0.win 14).blk t).view.set ↔ ∀ a : Fin 2, win0_14.index t a * S128x1024.size a ≤ (i a).val
      ∧ (i a).val < win0_14.index t a * S128x1024.size a + S128x1024.size a := by
  show i ∈ ((View.whole main_v9_0).slice (win0_14.rect t)).set ↔ _
  rw [View.set_slice_whole, Rect.mem_set_unit]
  exact Iff.rfl

/-- Row r lies in the block of point r / 128: the 32 blocks tile the array. -/
theorem cover14 (i : S4096x1024.Idx) :
    ∃ t : Fin cfg0.N, (cfg0.win 14).flush t = true ∧ i ∈ ((cfg0.win 14).blk t).view.set := by
  have hi0 : (i 0).val < 4096 := (i 0).isLt
  have hi1 : (i 1).val < 1024 := (i 1).isLt
  have hN : cfg0.N = 32 := N_0
  obtain ⟨t, ht⟩ : ∃ t : Fin cfg0.N, t.val = (i 0).val / 128 := ⟨⟨(i 0).val / 128, by rw [hN]; omega⟩, rfl⟩
  have hi := (moving_index t).2.2.2.2.2.1
  refine ⟨t, flush0_14 t, ?_⟩
  rw [mem_blk14]
  intro a
  match a with
  | ⟨0, _⟩ =>
    show win0_14.index t (0 : Fin 2) * 128 ≤ (i 0).val ∧ (i 0).val < win0_14.index t (0 : Fin 2) * 128 + 128
    rw [hi.1, ht]; omega
  | ⟨1, _⟩ =>
    show win0_14.index t (1 : Fin 2) * 1024 ≤ (i 1).val ∧ (i 1).val < win0_14.index t (1 : Fin 2) * 1024 + 1024
    rw [hi.2]; omega

/-- The new main hidden state, whole. -/
theorem final14 (c : Dev nD) : (dats m 0 c).arrAt 14 cfg0.N
    = outMainH (argW m c) (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 14 _ (fun t _ => flushed14_eq m c t) cover14

/-! ## The new main cell state (result window 15) -/

/-- What the body leaves in the block, at (p, q), is the cell's main cell state on row p of the loaded blocks. -/
theorem point15 (x0 x1 x2 : Vec Ideal S128x1024 .f32) (x3 x4 : Vec Ideal S128x256 .f32) (x5 x6 : Vec Ideal S4096x1024 .bf16)
    (x7 : Vec Ideal S1024x2048 .bf16) (x8 : Vec Ideal S1024x256 .bf16) (x9 : Vec Ideal S64x256 .bf16)
    (x10 x11 x12 : Vec Ideal S4096x64 .bf16) (x13 : Vec Ideal S1x1024 .f32) (y : S128x1024.Idx) :
    out0_15 x0 x1 x2 x3 x4 x5 x6 x7 x8 x9 x10 x11 x12 x13 y
      = mainC (Rows.blockW x9 x5 x6 x10 x11 x12 x7 x8 x13) (Rows.blockRow x0 x1 x3 x4 x2 (y 0)) (y 1) := by
  unfold out0_15
  rw [View.canon_unit_zero zeros2]
  simp only [View.ld_unit_zero (S := S128x1024) zeros2, View.ld_unit_zero (S := S128x256) zeros2,
    View.ld_unit_zero (S := S4096x1024) zeros2, View.ld_unit_zero (S := S1024x2048) zeros2,
    View.ld_unit_zero (S := S1024x256) zeros2, View.ld_unit_zero (S := S64x256) zeros2,
    View.ld_unit_zero (S := S4096x64) zeros2, View.ld_unit_zero (S := S1x1024) zeros2]
  exact (congrArg _ (eq_ix2 y)).trans (Rows.block_mainC x0 x1 x9 x5 x6 x10 x11 x12 x3 x7 x8 x13 x4 x2 (y 0) (y 1))

/-- What point t writes back is block t of the row-wise result of the whole arrays. -/
theorem flushed15_eq (c : Dev nD) (t : Fin cfg0.N) :
    (dats m 0 c).flushed 15 t = ((cfg0.win 15).blk t).view.read (Elt Ideal)
      (outMainC (argW m c) (m ((c : Thread nD τ).loc main_arg0)) (m ((c : Thread nD τ).loc main_arg1))
        (m ((c : Thread nD τ).loc main_arg2)) (m ((c : Thread nD τ).loc main_arg3)) (m ((c : Thread nD τ).loc main_arg4))) := by
  have hi := (moving_index t).2.2.2.2.2.2.1
  rw [ValueBlocks.flushed15]
  funext y
  rw [View.read_apply]
  show out0_15 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) y
    = outMainC (argW m c) (m ((c : Thread nD τ).loc main_arg0)) (m ((c : Thread nD τ).loc main_arg1))
        (m ((c : Thread nD τ).loc main_arg2)) (m ((c : Thread nD τ).loc main_arg3)) (m ((c : Thread nD τ).loc main_arg4))
        (((cfg0.win 15).blk t).view.emb y)
  refine (point15 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) y).trans ?_
  unfold outMainC
  have hr : (((cfg0.win 15).blk t).view.emb y 0).val = 128 * t.val + (y 0).val := by
    show win0_15.index t (0 : Fin 2) * 128 + 1 * (y 0).val = _
    rw [hi.1]; omega
  have hq : y 1 = ((cfg0.win 15).blk t).view.emb y 1 := Fin.ext (by
    show (y 1).val = win0_15.index t (1 : Fin 2) * 1024 + 1 * (y 1).val
    rw [hi.2]; omega)
  rw [weights_eq m c t, row_eq m c t (y 0) _ hr, ← hq]

/-- An index of the array is in point t's block iff each coordinate is in the block's range on its axis. -/
theorem mem_blk15 (t : Fin cfg0.N) (i : S4096x1024.Idx) :
    i ∈ ((cfg0.win 15).blk t).view.set ↔ ∀ a : Fin 2, win0_15.index t a * S128x1024.size a ≤ (i a).val
      ∧ (i a).val < win0_15.index t a * S128x1024.size a + S128x1024.size a := by
  show i ∈ ((View.whole main_v9_1).slice (win0_15.rect t)).set ↔ _
  rw [View.set_slice_whole, Rect.mem_set_unit]
  exact Iff.rfl

/-- Row r lies in the block of point r / 128. -/
theorem cover15 (i : S4096x1024.Idx) :
    ∃ t : Fin cfg0.N, (cfg0.win 15).flush t = true ∧ i ∈ ((cfg0.win 15).blk t).view.set := by
  have hi0 : (i 0).val < 4096 := (i 0).isLt
  have hi1 : (i 1).val < 1024 := (i 1).isLt
  have hN : cfg0.N = 32 := N_0
  obtain ⟨t, ht⟩ : ∃ t : Fin cfg0.N, t.val = (i 0).val / 128 := ⟨⟨(i 0).val / 128, by rw [hN]; omega⟩, rfl⟩
  have hi := (moving_index t).2.2.2.2.2.2.1
  refine ⟨t, flush0_15 t, ?_⟩
  rw [mem_blk15]
  intro a
  match a with
  | ⟨0, _⟩ =>
    show win0_15.index t (0 : Fin 2) * 128 ≤ (i 0).val ∧ (i 0).val < win0_15.index t (0 : Fin 2) * 128 + 128
    rw [hi.1, ht]; omega
  | ⟨1, _⟩ =>
    show win0_15.index t (1 : Fin 2) * 1024 ≤ (i 1).val ∧ (i 1).val < win0_15.index t (1 : Fin 2) * 1024 + 1024
    rw [hi.2]; omega

/-- The new main cell state, whole. -/
theorem final15 (c : Dev nD) : (dats m 0 c).arrAt 15 cfg0.N
    = outMainC (argW m c) (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 15 _ (fun t _ => flushed15_eq m c t) cover15

/-! ## The new meta hidden state (result window 16) -/

/-- What the body leaves in the block, at (p, q), is the meta cell's hidden state on row p of the loaded blocks. -/
theorem point16 (x0 x1 x2 : Vec Ideal S128x1024 .f32) (x3 x4 : Vec Ideal S128x256 .f32) (x5 x6 : Vec Ideal S4096x1024 .bf16)
    (x7 : Vec Ideal S1024x2048 .bf16) (x8 : Vec Ideal S1024x256 .bf16) (x9 : Vec Ideal S64x256 .bf16)
    (x10 x11 x12 : Vec Ideal S4096x64 .bf16) (x13 : Vec Ideal S1x1024 .f32) (y : S128x256.Idx) :
    out0_16 x0 x1 x2 x3 x4 x5 x6 x7 x8 x9 x10 x11 x12 x13 y
      = metaH (Rows.blockW x9 x5 x6 x10 x11 x12 x7 x8 x13) (Rows.blockRow x0 x1 x3 x4 x2 (y 0)) (y 1) := by
  unfold out0_16
  rw [View.canon_unit_zero zeros2]
  simp only [View.ld_unit_zero (S := S128x1024) zeros2, View.ld_unit_zero (S := S128x256) zeros2,
    View.ld_unit_zero (S := S1024x2048) zeros2, View.ld_unit_zero (S := S1024x256) zeros2,
    View.ld_unit_zero (S := S1x1024) zeros2]
  exact (congrArg _ (eq_ix2 y)).trans (Rows.block_metaH x0 x1 x9 x5 x6 x10 x11 x12 x3 x7 x8 x13 x4 x2 (y 0) (y 1))

/-- What point t writes back is block t of the row-wise result of the whole arrays. -/
theorem flushed16_eq (c : Dev nD) (t : Fin cfg0.N) :
    (dats m 0 c).flushed 16 t = ((cfg0.win 16).blk t).view.read (Elt Ideal)
      (outMetaH (argW m c) (m ((c : Thread nD τ).loc main_arg0)) (m ((c : Thread nD τ).loc main_arg1))
        (m ((c : Thread nD τ).loc main_arg2)) (m ((c : Thread nD τ).loc main_arg3)) (m ((c : Thread nD τ).loc main_arg4))) := by
  have hi := (moving_index t).2.2.2.2.2.2.2.1
  rw [ValueBlocks.flushed16]
  funext y
  rw [View.read_apply]
  show out0_16 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) y
    = outMetaH (argW m c) (m ((c : Thread nD τ).loc main_arg0)) (m ((c : Thread nD τ).loc main_arg1))
        (m ((c : Thread nD τ).loc main_arg2)) (m ((c : Thread nD τ).loc main_arg3)) (m ((c : Thread nD τ).loc main_arg4))
        (((cfg0.win 16).blk t).view.emb y)
  refine (point16 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) y).trans ?_
  unfold outMetaH
  have hr : (((cfg0.win 16).blk t).view.emb y 0).val = 128 * t.val + (y 0).val := by
    show win0_16.index t (0 : Fin 2) * 128 + 1 * (y 0).val = _
    rw [hi.1]; omega
  have hq : y 1 = ((cfg0.win 16).blk t).view.emb y 1 := Fin.ext (by
    show (y 1).val = win0_16.index t (1 : Fin 2) * 256 + 1 * (y 1).val
    rw [hi.2]; omega)
  rw [weights_eq m c t, row_eq m c t (y 0) _ hr, ← hq]

/-- An index of the array is in point t's block iff each coordinate is in the block's range on its axis. -/
theorem mem_blk16 (t : Fin cfg0.N) (i : S4096x256.Idx) :
    i ∈ ((cfg0.win 16).blk t).view.set ↔ ∀ a : Fin 2, win0_16.index t a * S128x256.size a ≤ (i a).val
      ∧ (i a).val < win0_16.index t a * S128x256.size a + S128x256.size a := by
  show i ∈ ((View.whole main_v9_2).slice (win0_16.rect t)).set ↔ _
  rw [View.set_slice_whole, Rect.mem_set_unit]
  exact Iff.rfl

/-- Row r lies in the block of point r / 128. -/
theorem cover16 (i : S4096x256.Idx) :
    ∃ t : Fin cfg0.N, (cfg0.win 16).flush t = true ∧ i ∈ ((cfg0.win 16).blk t).view.set := by
  have hi0 : (i 0).val < 4096 := (i 0).isLt
  have hi1 : (i 1).val < 256 := (i 1).isLt
  have hN : cfg0.N = 32 := N_0
  obtain ⟨t, ht⟩ : ∃ t : Fin cfg0.N, t.val = (i 0).val / 128 := ⟨⟨(i 0).val / 128, by rw [hN]; omega⟩, rfl⟩
  have hi := (moving_index t).2.2.2.2.2.2.2.1
  refine ⟨t, flush0_16 t, ?_⟩
  rw [mem_blk16]
  intro a
  match a with
  | ⟨0, _⟩ =>
    show win0_16.index t (0 : Fin 2) * 128 ≤ (i 0).val ∧ (i 0).val < win0_16.index t (0 : Fin 2) * 128 + 128
    rw [hi.1, ht]; omega
  | ⟨1, _⟩ =>
    show win0_16.index t (1 : Fin 2) * 256 ≤ (i 1).val ∧ (i 1).val < win0_16.index t (1 : Fin 2) * 256 + 256
    rw [hi.2]; omega

/-- The new meta hidden state, whole. -/
theorem final16 (c : Dev nD) : (dats m 0 c).arrAt 16 cfg0.N
    = outMetaH (argW m c) (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 16 _ (fun t _ => flushed16_eq m c t) cover16

/-! ## The new meta cell state (result window 17) -/

/-- What the body leaves in the block, at (p, q), is the meta cell's cell state on row p of the loaded blocks. -/
theorem point17 (x0 x1 x2 : Vec Ideal S128x1024 .f32) (x3 x4 : Vec Ideal S128x256 .f32) (x5 x6 : Vec Ideal S4096x1024 .bf16)
    (x7 : Vec Ideal S1024x2048 .bf16) (x8 : Vec Ideal S1024x256 .bf16) (x9 : Vec Ideal S64x256 .bf16)
    (x10 x11 x12 : Vec Ideal S4096x64 .bf16) (x13 : Vec Ideal S1x1024 .f32) (y : S128x256.Idx) :
    out0_17 x0 x1 x2 x3 x4 x5 x6 x7 x8 x9 x10 x11 x12 x13 y
      = metaC (Rows.blockW x9 x5 x6 x10 x11 x12 x7 x8 x13) (Rows.blockRow x0 x1 x3 x4 x2 (y 0)) (y 1) := by
  unfold out0_17
  rw [View.canon_unit_zero zeros2]
  simp only [View.ld_unit_zero (S := S128x1024) zeros2, View.ld_unit_zero (S := S128x256) zeros2,
    View.ld_unit_zero (S := S1024x2048) zeros2, View.ld_unit_zero (S := S1024x256) zeros2,
    View.ld_unit_zero (S := S1x1024) zeros2]
  exact (congrArg _ (eq_ix2 y)).trans (Rows.block_metaC x0 x1 x9 x5 x6 x10 x11 x12 x3 x7 x8 x13 x4 x2 (y 0) (y 1))

/-- What point t writes back is block t of the row-wise result of the whole arrays. -/
theorem flushed17_eq (c : Dev nD) (t : Fin cfg0.N) :
    (dats m 0 c).flushed 17 t = ((cfg0.win 17).blk t).view.read (Elt Ideal)
      (outMetaC (argW m c) (m ((c : Thread nD τ).loc main_arg0)) (m ((c : Thread nD τ).loc main_arg1))
        (m ((c : Thread nD τ).loc main_arg2)) (m ((c : Thread nD τ).loc main_arg3)) (m ((c : Thread nD τ).loc main_arg4))) := by
  have hi := (moving_index t).2.2.2.2.2.2.2.2
  rw [ValueBlocks.flushed17]
  funext y
  rw [View.read_apply]
  show out0_17 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) y
    = outMetaC (argW m c) (m ((c : Thread nD τ).loc main_arg0)) (m ((c : Thread nD τ).loc main_arg1))
        (m ((c : Thread nD τ).loc main_arg2)) (m ((c : Thread nD τ).loc main_arg3)) (m ((c : Thread nD τ).loc main_arg4))
        (((cfg0.win 17).blk t).view.emb y)
  refine (point17 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) y).trans ?_
  unfold outMetaC
  have hr : (((cfg0.win 17).blk t).view.emb y 0).val = 128 * t.val + (y 0).val := by
    show win0_17.index t (0 : Fin 2) * 128 + 1 * (y 0).val = _
    rw [hi.1]; omega
  have hq : y 1 = ((cfg0.win 17).blk t).view.emb y 1 := Fin.ext (by
    show (y 1).val = win0_17.index t (1 : Fin 2) * 256 + 1 * (y 1).val
    rw [hi.2]; omega)
  rw [weights_eq m c t, row_eq m c t (y 0) _ hr, ← hq]

/-- An index of the array is in point t's block iff each coordinate is in the block's range on its axis. -/
theorem mem_blk17 (t : Fin cfg0.N) (i : S4096x256.Idx) :
    i ∈ ((cfg0.win 17).blk t).view.set ↔ ∀ a : Fin 2, win0_17.index t a * S128x256.size a ≤ (i a).val
      ∧ (i a).val < win0_17.index t a * S128x256.size a + S128x256.size a := by
  show i ∈ ((View.whole main_v9_3).slice (win0_17.rect t)).set ↔ _
  rw [View.set_slice_whole, Rect.mem_set_unit]
  exact Iff.rfl

/-- Row r lies in the block of point r / 128. -/
theorem cover17 (i : S4096x256.Idx) :
    ∃ t : Fin cfg0.N, (cfg0.win 17).flush t = true ∧ i ∈ ((cfg0.win 17).blk t).view.set := by
  have hi0 : (i 0).val < 4096 := (i 0).isLt
  have hi1 : (i 1).val < 256 := (i 1).isLt
  have hN : cfg0.N = 32 := N_0
  obtain ⟨t, ht⟩ : ∃ t : Fin cfg0.N, t.val = (i 0).val / 128 := ⟨⟨(i 0).val / 128, by rw [hN]; omega⟩, rfl⟩
  have hi := (moving_index t).2.2.2.2.2.2.2.2
  refine ⟨t, flush0_17 t, ?_⟩
  rw [mem_blk17]
  intro a
  match a with
  | ⟨0, _⟩ =>
    show win0_17.index t (0 : Fin 2) * 128 ≤ (i 0).val ∧ (i 0).val < win0_17.index t (0 : Fin 2) * 128 + 128
    rw [hi.1, ht]; omega
  | ⟨1, _⟩ =>
    show win0_17.index t (1 : Fin 2) * 256 ≤ (i 1).val ∧ (i 1).val < win0_17.index t (1 : Fin 2) * 256 + 256
    rw [hi.2]; omega

/-- The new meta cell state, whole. -/
theorem final17 (c : Dev nD) : (dats m 0 c).arrAt 17 cfg0.N
    = outMetaC (argW m c) (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 17 _ (fun t _ => flushed17_eq m c t) cover17

/-- The kernel's run, read: every execution ends with the four result arrays at the cell's step on every row, and the
    arguments as they were. -/
theorem run : θ_run defs (onTc (τ := τ) (main (F := Ideal))) ⟨m, fun _ => 0, ρ⟩ fun r => ∀ c : Dev nD,
      r.2.mem ((c : Thread nD τ).loc main_v9_0) = outMainH (argW m c) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v9_1) = outMainC (argW m c) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v9_2) = outMetaH (argW m c) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v9_3) = outMetaC (argW m c) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final14 m c), (h c).2.1.trans (final15 m c),
      (h c).2.2.1.trans (final16 m c), (h c).2.2.2.1.trans (final17 m c), (h c).2.2.2.2⟩)
    (ValueBlocks.run_blocks m ρ)

end Cert.KernelIdeal.Blocks

end
-- ==== Proof.lean ====
/-
  A fused hyper-LSTM step against its plain description: the certificate's five claims.

  The kernel handles the batch in 32 blocks of 128 rows, keeps every parameter matrix whole beside the block, multiplies
  the input and the main hidden state by the two halves of one parameter matrix separately, and uses the logistic function
  as one operation; the reference joins the two activations before one product and spells the logistic function out. On
  the extended reals both compute, row by row, the same step of the cell (RowSpec): a sum over a joined axis is the sum of
  the sums over its halves, the spelt-out logistic function is the logistic function, and a change of float format is the
  identity. No step needs the inputs to be finite.

  Frames: the two kernels' are the generated ones; the reference's is its generated run with the results dropped.
  Nothing was rewritten between the kernel and its idealization, so that claim is trivial. The value claim puts the
  kernel's run, read as whole arrays (Blocks, over KernelRows), beside the reference's run, read row by row (RefRows).
-/
import proofs.«173578_j35691178230152_1_alg».proof.Defs
import proofs.«173578_j35691178230152_1_alg».proof.Proof.Gen.Kernel
import proofs.«173578_j35691178230152_1_alg».proof.Proof.Gen.Kernel.Skeleton
import proofs.«173578_j35691178230152_1_alg».proof.Proof.Gen.Kernel.Launch
import proofs.«173578_j35691178230152_1_alg».proof.Proof.Gen.Kernel.Points
import proofs.«173578_j35691178230152_1_alg».proof.Proof.Gen.Kernel.Frame
import proofs.«173578_j35691178230152_1_alg».proof.Proof.Gen.KernelIdeal
import proofs.«173578_j35691178230152_1_alg».proof.Proof.Gen.KernelIdeal.Skeleton
import proofs.«173578_j35691178230152_1_alg».proof.Proof.Gen.KernelIdeal.Launch
import proofs.«173578_j35691178230152_1_alg».proof.Proof.Gen.KernelIdeal.Points
import proofs.«173578_j35691178230152_1_alg».proof.Proof.Gen.KernelIdeal.Frame
import proofs.«173578_j35691178230152_1_alg».proof.Proof.Gen.ReferenceIdeal
import proofs.«173578_j35691178230152_1_alg».proof.Proof.Gen.Pre_finite_inputs
import proofs.«173578_j35691178230152_1_alg».proof.Proof.KernelValueBlocks
import proofs.«173578_j35691178230152_1_alg».proof.Proof.Gen.ReferenceIdeal.Run
import proofs.«173578_j35691178230152_1_alg».proof.Proof.Gen.ReferenceIdeal.Read
import proofs.«173578_j35691178230152_1_alg».proof.Proof.RowSpec
import proofs.«173578_j35691178230152_1_alg».proof.Proof.KernelRows
import proofs.«173578_j35691178230152_1_alg».proof.Proof.RefRows
import proofs.«173578_j35691178230152_1_alg».proof.Proof.Blocks
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments as they were: its generated run, the four results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

section Agree

open Cert.ReferenceIdeal Cert.HyperLstm Idealize.ShloMosaic.ValueIdx

/-- The reference's four results on arguments x, as the cell's step on every row of arguments y that the x equal. -/
theorem reference_results
    (x0 x1 x2 y0 y1 y2 : (⟨S4096x1024, .f32⟩ : BufTy).Contents (Elt Ideal)) (x3 x4 y3 y4 : (⟨S4096x256, .f32⟩ : BufTy).Contents (Elt Ideal))
    (x5 x6 y5 y6 : (⟨S4096x1024, .f32⟩ : BufTy).Contents (Elt Ideal)) (x7 y7 : (⟨S1024x2048, .f32⟩ : BufTy).Contents (Elt Ideal))
    (x8 y8 : (⟨S1024x256, .f32⟩ : BufTy).Contents (Elt Ideal)) (x9 y9 : (⟨S64x256, .f32⟩ : BufTy).Contents (Elt Ideal))
    (x10 x11 x12 y10 y11 y12 : (⟨S4096x64, .f32⟩ : BufTy).Contents (Elt Ideal)) (x13 y13 : (⟨S1024, .f32⟩ : BufTy).Contents (Elt Ideal))
    (h0 : x0 = y0) (h1 : x1 = y1) (h2 : x2 = y2) (h3 : x3 = y3) (h4 : x4 = y4) (h5 : x5 = y5) (h6 : x6 = y6) (h7 : x7 = y7)
    (h8 : x8 = y8) (h9 : x9 = y9) (h10 : x10 = y10) (h11 : x11 = y11) (h12 : x12 = y12) (h13 : x13 = y13) :
    Read.val_main_v80 (F := Ideal) x0 x1 x2 x3 x4 x5 x6 x7 x8 x9 x10 x11 x12 x13
        = outMainH (weightsOf y5 y6 y7 y8 y9 y10 y11 y12 (fun j => y13 (ix1 j))) y0 y1 y2 y3 y4
    ∧ Read.val_main_v78 (F := Ideal) x0 x1 x2 x3 x4 x5 x6 x7 x8 x9 x10 x11 x12 x13
        = outMainC (weightsOf y5 y6 y7 y8 y9 y10 y11 y12 (fun j => y13 (ix1 j))) y0 y1 y2 y3 y4
    ∧ Read.val_main_v36 (F := Ideal) x0 x1 x3 x4 x7 x8 x13
        = outMetaH (weightsOf y5 y6 y7 y8 y9 y10 y11 y12 (fun j => y13 (ix1 j))) y0 y1 y2 y3 y4
    ∧ Read.val_main_v34 (F := Ideal) x0 x1 x3 x4 x7 x8 x13
        = outMetaC (weightsOf y5 y6 y7 y8 y9 y10 y11 y12 (fun j => y13 (ix1 j))) y0 y1 y2 y3 y4 := by
  subst h0 h1 h2 h3 h4 h5 h6 h7 h8 h9 h10 h11 h12 h13
  exact ⟨Rows.ref_mainH x0 x1 x2 x3 x4 x5 x6 x7 x8 x9 x10 x11 x12 x13, Rows.ref_mainC x0 x1 x2 x3 x4 x5 x6 x7 x8 x9 x10 x11 x12 x13,
    Rows.ref_metaH x0 x1 x2 x3 x4 x5 x6 x7 x8 x9 x10 x11 x12 x13, Rows.ref_metaC x0 x1 x2 x3 x4 x5 x6 x7 x8 x9 x10 x11 x12 x13⟩

end Agree

/-- The kernel's four result arrays end at the cell's step on every row of the arguments; the reference's four results
    are the same step on every row of arguments that agree with the kernel's. -/
theorem algebraic : Cert.algebraic_KernelIdeal_ReferenceIdeal := by
  intro m ρ m' ρ' _ hagree
  refine ⟨_, _, _, _, Cert.KernelIdeal.Blocks.run m ρ, ?_⟩
  refine (θ_run Cert.ReferenceIdeal.defs _ _).mono (fun _ h c => ?_) (Cert.ReferenceIdeal.Value.run (F := Ideal) m' ρ')
  obtain ⟨h0, h1, h2, h3, hk⟩ := h c
  obtain ⟨a0, a1, a2, a3, a4, a5, a6, a7, a8, a9, a10, a11, a12, a13⟩ := hagree c
  obtain ⟨e0, e1, e2, e3⟩ := reference_results _ _ _ _ _ _ _ _ _ _ _ _ _ _ _ _ _ _ _ _ _ _ _ _ _ _ _ _
    a0 a1 a2 a3 a4 a5 a6 a7 a8 a9 a10 a11 a12 a13
  exact ⟨h0.trans ((Cert.ReferenceIdeal.Read.val_main_v80_eq m' c).trans e0),
    h1.trans ((Cert.ReferenceIdeal.Read.val_main_v78_eq m' c).trans e1),
    h2.trans ((Cert.ReferenceIdeal.Read.val_main_v36_eq m' c).trans e2),
    h3.trans ((Cert.ReferenceIdeal.Read.val_main_v34_eq _ _ _ _ _ _ _).trans e3), hk⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
